-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x50 : Shape := ⟨2, ![4096, 50]⟩
abbrev S4096x50x100 : Shape := ⟨3, ![4096, 50, 100]⟩
abbrev S50000x128 : Shape := ⟨2, ![50000, 128]⟩
abbrev S128x128 : Shape := ⟨2, ![128, 128]⟩
abbrev S128 : Shape := ⟨1, ![128]⟩
abbrev S384x256 : Shape := ⟨2, ![384, 256]⟩
abbrev S384 : Shape := ⟨1, ![384]⟩
abbrev S384x128 : Shape := ⟨2, ![384, 128]⟩
abbrev S_ : Shape := ⟨0, ![]⟩

class Facts : Prop where
  bcast_S_S4096x50x100 : S_.BroadcastsInDim S4096x50x100 (![] : Fin 0 → Fin S4096x50x100.rank)
  reducesTo_S4096x50x100_S_d0_1_2 : S4096x50x100.ReducesTo [0, 1, 2] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S384x256 : S_.BroadcastsInDim S384x256 (![] : Fin 0 → Fin S384x256.rank)
  reducesTo_S384x256_S_d0_1 : S384x256.ReducesTo [0, 1] S_
  bcast_S_S384 : S_.BroadcastsInDim S384 (![] : Fin 0 → Fin S384.rank)
  reducesTo_S384_S_d0 : S384.ReducesTo [0] S_
  bcast_S_S384x128 : S_.BroadcastsInDim S384x128 (![] : Fin 0 → Fin S384x128.rank)
  reducesTo_S384x128_S_d0_1 : S384x128.ReducesTo [0, 1] S_
  bcast_S_S4096x50 : S_.BroadcastsInDim S4096x50 (![] : Fin 0 → Fin S4096x50.rank)
  reducesTo_S4096x50_S_d0_1 : S4096x50.ReducesTo [0, 1] S_

variable [Facts]

def fn_part3 {F : FTy → Type} [FloatOps F] (main_arg0 : IVec S4096x50 32) (main_arg12 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_c_22 : IVec S_ 32 := constantI S_ 32 0#32
  let main_v59 : IVec S4096x50 32 := broadcastInDim S4096x50 ![] bcast_S_S4096x50 main_c_22
  let main_v60 : IVec S4096x50 1 := cmpi .sge main_arg0 main_v59
  let main_c_23 : IVec S_ 32 := constantI S_ 32 50000#32
  let main_v61 : IVec S4096x50 32 := broadcastInDim S4096x50 ![] bcast_S_S4096x50 main_c_23
  let main_v62 : IVec S4096x50 1 := cmpi .slt main_arg0 main_v61
  let main_v63 : IVec S4096x50 1 := andi main_v60 main_v62
  let main_c_24 : IVec S_ 1 := constantI S_ 1 1#1
  let main_v64 : IVec S_ 1 := (fun x v => Host.reduce IntOp.andi x v reducesTo_S4096x50_S_d0_1 h_S_) main_v63 main_c_24
  let main_v65 : IVec S_ 1 := andi main_v58 main_v64
  main_v65

def fn_part2 {F : FTy → Type} [FloatOps F] (main_arg0 : IVec S4096x50 32) (main_arg8 : FVec F S384 .f32) (main_arg9 : FVec F S384x128 .f32) (main_arg10 : FVec F S384 .f32) (main_arg11 : FVec F S128 .f32) (main_arg12 : FVec F S128 .f32) (main_v33 : IVec S_ 1) : IVec S_ 1 :=
  let main_v34 : FVec F S384 .f32 := Host.absf main_arg8
  let main_cst_12 : FVec F S_ .f32 := constant S_ .f32 0x7F800000#32
  let main_v35 : FVec F S384 .f32 := broadcastInDim S384 ![] bcast_S_S384 main_cst_12
  let main_v36 : IVec S384 1 := cmpf .olt main_v34 main_v35
  let main_c_13 : IVec S_ 1 := constantI S_ 1 1#1
  let main_v37 : IVec S_ 1 := (fun x v => Host.reduce IntOp.andi x v reducesTo_S384_S_d0 h_S_) main_v36 main_c_13
  let main_v38 : IVec S_ 1 := andi main_v33 main_v37
  let main_v39 : FVec F S384x128 .f32 := Host.absf main_arg9
  let main_cst_14 : FVec F S_ .f32 := constant S_ .f32 0x7F800000#32
  let main_v40 : FVec F S384x128 .f32 := broadcastInDim S384x128 ![] bcast_S_S384x128 main_cst_14
  let main_v41 : IVec S384x128 1 := cmpf .olt main_v39 main_v40
  let main_c_15 : IVec S_ 1 := constantI S_ 1 1#1
  let main_v42 : IVec S_ 1 := (fun x v => Host.reduce IntOp.andi x v reducesTo_S384x128_S_d0_1 h_S_) main_v41 main_c_15
  let main_v43 : IVec S_ 1 := andi main_v38 main_v42
  let main_v44 : FVec F S384 .f32 := Host.absf main_arg10
  let main_cst_16 : FVec F S_ .f32 := constant S_ .f32 0x7F800000#32
  let main_v45 : FVec F S384 .f32 := broadcastInDim S384 ![] bcast_S_S384 main_cst_16
  let main_v46 : IVec S384 1 := cmpf .olt main_v44 main_v45
  let main_c_17 : IVec S_ 1 := constantI S_ 1 1#1
  let main_v47 : IVec S_ 1 := (fun x v => Host.reduce IntOp.andi x v reducesTo_S384_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg0 main_arg12 main_v48 main_v49 main_v50

def fn_part1 {F : FTy → Type} [FloatOps F] (main_arg0 : IVec S4096x50 32) (main_arg5 : FVec F S128x128 .f32) (main_arg6 : FVec F S128 .f32) (main_arg7 : FVec F S384x256 .f32) (main_arg8 : FVec F S384 .f32) (main_arg9 : FVec F S384x128 .f32) (main_arg10 : FVec F S384 .f32) (main_arg11 : FVec F S128 .f32) (main_arg12 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S384x256 .f32 := Host.absf main_arg7
  let main_cst_10 : FVec F S_ .f32 := constant S_ .f32 0x7F800000#32
  let main_v30 : FVec F S384x256 .f32 := broadcastInDim S384x256 ![] bcast_S_S384x256 main_cst_10
  let main_v31 : IVec S384x256 1 := cmpf .olt main_v29 main_v30
  let main_c_11 : IVec S_ 1 := constantI S_ 1 1#1
  let main_v32 : IVec S_ 1 := (fun x v => Host.reduce IntOp.andi x v reducesTo_S384x256_S_d0_1 h_S_) main_v31 main_c_11
  let main_v33 : IVec S_ 1 := andi main_v28 main_v32
  fn_part2 (F := F) main_arg0 main_arg8 main_arg9 main_arg10 main_arg11 main_arg12 main_v33

def fn {F : FTy → Type} [FloatOps F] (main_arg0 : IVec S4096x50 32) (main_arg1 : FVec F S4096x50x100 .f32) (main_arg2 : FVec F S50000x128 .f32) (main_arg3 : FVec F S128x128 .f32) (main_arg4 : FVec F S128 .f32) (main_arg5 : FVec F S128x128 .f32) (main_arg6 : FVec F S128 .f32) (main_arg7 : FVec F S384x256 .f32) (main_arg8 : FVec F S384 .f32) (main_arg9 : FVec F S384x128 .f32) (main_arg10 : FVec F S384 .f32) (main_arg11 : FVec F S128 .f32) (main_arg12 : FVec F S128 .f32) : IVec S_ 1 :=
  let main_v0 : FVec F S4096x50x100 .f32 := Host.absf main_arg1
  let main_cst : FVec F S_ .f32 := constant S_ .f32 0x7F800000#32
  let main_v1 : FVec F S4096x50x100 .f32 := broadcastInDim S4096x50x100 ![] bcast_S_S4096x50x100 main_cst
  let main_v2 : IVec S4096x50x100 1 := cmpf .olt main_v0 main_v1
  let main_c : IVec S_ 1 := constantI S_ 1 1#1
  let main_v3 : IVec S_ 1 := (fun x v => Host.reduce IntOp.andi x v reducesTo_S4096x50x100_S_d0_1_2 h_S_) main_v2 main_c
  let main_v4 : FVec F S50000x128 .f32 := Host.absf main_arg2
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg0 main_arg5 main_arg6 main_arg7 main_arg8 main_arg9 main_arg10 main_arg11 main_arg12 main_v13 main_v16
-- ==== Kernel.lean ====
abbrev S4096x50 : Shape := ⟨2, ![4096, 50]⟩
abbrev S4096x50x100 : Shape := ⟨3, ![4096, 50, 100]⟩
abbrev S50000x128 : Shape := ⟨2, ![50000, 128]⟩
abbrev S128x128 : Shape := ⟨2, ![128, 128]⟩
abbrev S128 : Shape := ⟨1, ![128]⟩
abbrev S384x256 : Shape := ⟨2, ![384, 256]⟩
abbrev S384 : Shape := ⟨1, ![384]⟩
abbrev S384x128 : Shape := ⟨2, ![384, 128]⟩
abbrev S_ : Shape := ⟨0, ![]⟩
abbrev S4096x50x1 : Shape := ⟨3, ![4096, 50, 1]⟩
abbrev S1 : Shape := ⟨1, ![1]⟩
abbrev S1x1x1 : Shape := ⟨3, ![1, 1, 1]⟩
abbrev S4096x50x128 : Shape := ⟨3, ![4096, 50, 128]⟩
abbrev S256x384 : Shape := ⟨2, ![256, 384]⟩
abbrev S128x384 : Shape := ⟨2, ![128, 384]⟩
abbrev S1x128 : Shape := ⟨2, ![1, 128]⟩
abbrev S1x384 : Shape := ⟨2, ![1, 384]⟩
abbrev S32x50x128 : Shape := ⟨3, ![32, 50, 128]⟩
abbrev S32x50x100 : Shape := ⟨3, ![32, 50, 100]⟩
abbrev S32x50x50 : Shape := ⟨3, ![32, 50, 50]⟩
abbrev S1600x128 : Shape := ⟨2, ![1600, 128]⟩
abbrev S1x1x128 : Shape := ⟨3, ![1, 1, 128]⟩

abbrev nBuf : Space → Nat
  | .hbm => 47
  | .vmem => 16
  | .smem => 0
  | _ => 0

abbrev bufTy : (tb : Table) → Fin (tcTables nBuf tb) → BufTy
  | .hbm, ⟨0, _⟩ => ⟨S4096x50, .i32⟩
  | .hbm, ⟨1, _⟩ => ⟨S4096x50x100, .f32⟩
  | .hbm, ⟨2, _⟩ => ⟨S50000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S384x256, .f32⟩
  | .hbm, ⟨8, _⟩ => ⟨S384, .f32⟩
  | .hbm, ⟨9, _⟩ => ⟨S384x128, .f32⟩
  | .hbm, ⟨10, _⟩ => ⟨S384, .f32⟩
  | .hbm, ⟨11, _⟩ => ⟨S128, .f32⟩
  | .hbm, ⟨12, _⟩ => ⟨S128, .f32⟩
  | .hbm, ⟨13, _⟩ => ⟨S_, .i32⟩
  | .hbm, ⟨14, _⟩ => ⟨S4096x50, .i32⟩
  | .hbm, ⟨15, _⟩ => ⟨S4096x50, .i1⟩
  | .hbm, ⟨16, _⟩ => ⟨S_, .i32⟩
  | .hbm, ⟨17, _⟩ => ⟨S4096x50, .i32⟩
  | .hbm, ⟨18, _⟩ => ⟨S4096x50, .i32⟩
  | .hbm, ⟨19, _⟩ => ⟨S4096x50, .i32⟩
  | .hbm, ⟨20, _⟩ => ⟨S4096x50x1, .i32⟩
  | .hbm, ⟨21, _⟩ => ⟨S1, .i32⟩
  | .hbm, ⟨22, _⟩ => ⟨S_, .i32⟩
  | .hbm, ⟨23, _⟩ => ⟨S4096x50x1, .i32⟩
  | .hbm, ⟨24, _⟩ => ⟨S4096x50x1, .i1⟩
  | .hbm, ⟨25, _⟩ => ⟨S1x1x1, .i32⟩
  | .hbm, ⟨26, _⟩ => ⟨S4096x50x1, .i32⟩
  | .hbm, ⟨27, _⟩ => ⟨S4096x50x1, .i1⟩
  | .hbm, ⟨28, _⟩ => ⟨S4096x50x1, .i1⟩
  | .hbm, ⟨29, _⟩ => ⟨S_, .i1⟩
  | .hbm, ⟨30, _⟩ => ⟨S4096x50, .i1⟩
  | .hbm, ⟨31, _⟩ => ⟨S4096x50x128, .f32⟩
  | .hbm, ⟨32, _⟩ => ⟨S4096x50x128, .i1⟩
  | .hbm, ⟨33, _⟩ => ⟨S_, .f32⟩
  | .hbm, ⟨34, _⟩ => ⟨S4096x50x128, .f32⟩
  | .hbm, ⟨35, _⟩ => ⟨S4096x50x128, .f32⟩
  | .hbm, ⟨36, _⟩ => ⟨S128x128, .f32⟩
  | .hbm, ⟨37, _⟩ => ⟨S128x128, .f32⟩
  | .hbm, ⟨38, _⟩ => ⟨S256x384, .f32⟩
  | .hbm, ⟨39, _⟩ => ⟨S128x384, .f32⟩
  | .hbm, ⟨40, _⟩ => ⟨S1x128, .f32⟩
  | .hbm, ⟨41, _⟩ => ⟨S1x128, .f32⟩
  | .hbm, ⟨42, _⟩ => ⟨S1x384, .f32⟩
  | .hbm, ⟨43, _⟩ => ⟨S1x384, .f32⟩
  | .hbm, ⟨44, _⟩ => ⟨S1x128, .f32⟩
  | .hbm, ⟨45, _⟩ => ⟨S1x128, .f32⟩
  | .hbm, ⟨46, _⟩ => ⟨S4096x50x128, .f32⟩
  | .local _ .vmem, ⟨0, _⟩ => ⟨S32x50x128, .f32⟩
  | .local _ .vmem, ⟨1, _⟩ => ⟨S32x50x128, .f32⟩
  | .local _ .vmem, ⟨2, _⟩ => ⟨S32x50x100, .f32⟩
  | .local _ .vmem, ⟨3, _⟩ => ⟨S32x50x100, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S256x384, .f32⟩
  | .local _ .vmem, ⟨9, _⟩ => ⟨S1x384, .f32⟩
  | .local _ .vmem, ⟨10, _⟩ => ⟨S128x384, .f32⟩
  | .local _ .vmem, ⟨11, _⟩ => ⟨S1x384, .f32⟩
  | .local _ .vmem, ⟨12, _⟩ => ⟨S1x128, .f32⟩
  | .local _ .vmem, ⟨13, _⟩ => ⟨S1x128, .f32⟩
  | .local _ .vmem, ⟨14, _⟩ => ⟨S32x50x128, .f32⟩
  | .local _ .vmem, ⟨15, _⟩ => ⟨S32x50x128, .f32⟩
  | _, _ => ⟨S4096x50, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v0 : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x50x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x50x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S32x50x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bcast_S_S4096x50 : S_.BroadcastsInDim S4096x50 (![] : Fin 0 → Fin S4096x50.rank)
  bcast_S4096x50_S4096x50x1_0_1 : S4096x50.BroadcastsInDim S4096x50x1 (![0, 1] : Fin 2 → Fin S4096x50x1.rank)
  bcast_S_S4096x50x1 : S_.BroadcastsInDim S4096x50x1 (![] : Fin 0 → Fin S4096x50x1.rank)
  bcast_S1_S1x1x1_2 : S1.BroadcastsInDim S1x1x1 (![2] : Fin 1 → Fin S1x1x1.rank)
  bcast_S1x1x1_S4096x50x1_0_1_2 : S1x1x1.BroadcastsInDim S4096x50x1 (![0, 1, 2] : Fin 3 → Fin S4096x50x1.rank)
  reducesTo_S4096x50x1_S4096x50_d2 : S4096x50x1.ReducesTo [2] S4096x50
  h_S_ : 0 < S_.numel
  bcast_S4096x50_S4096x50x128_0_1 : S4096x50.BroadcastsInDim S4096x50x128 (![0, 1] : Fin 2 → Fin S4096x50x128.rank)
  bcast_S_S4096x50x128 : S_.BroadcastsInDim S4096x50x128 (![] : Fin 0 → Fin S4096x50x128.rank)
  transposes_S128x128_S128x128_1_0 : S128x128.Transposes [1, 0] S128x128
  transposes_S384x256_S256x384_1_0 : S384x256.Transposes [1, 0] S256x384
  transposes_S384x128_S128x384_1_0 : S384x128.Transposes [1, 0] S128x384
  shapeCasts_S128_S1x128 : S128.ShapeCasts S1x128
  shapeCasts_S384_S1x384 : S384.ShapeCasts S1x384
  inb_S32x50x128_S32x50x128_0_0_0 : ∀ a, (![0, 0, 0] : Fin 3 → Nat) a + S32x50x128.size a ≤ S32x50x128.size a
  h_S32x50x128 : 0 < S32x50x128.numel
  shapeCasts_S32x50x128_S32x50x128 : S32x50x128.ShapeCasts S32x50x128
  inb_S32x50x100_S32x50x100_0_0_0 : ∀ a, (![0, 0, 0] : Fin 3 → Nat) a + S32x50x100.size a ≤ S32x50x100.size a
  h_S32x50x100 : 0 < S32x50x100.numel
  slices_S32x50x100_o0_0_0_S32x50x50 : S32x50x100.Slices ![0, 0, 0] S32x50x50
  slices_S32x50x100_o0_0_50_S32x50x50 : S32x50x100.Slices ![0, 0, 50] S32x50x50
  shapeCasts_S32x50x128_S1600x128 : S32x50x128.ShapeCasts S1600x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1600x128 : S1x128.Broadcasts S1600x128
  shapeCasts_S1600x128_S32x50x128 : S1600x128.ShapeCasts S32x50x128
  shapeCasts_S1x128_S1x1x128 : S1x128.ShapeCasts S1x1x128
  broadcasts_S1x1x128_S32x50x128 : S1x1x128.Broadcasts S32x50x128
  inb_S256x384_S256x384_0_0 : ∀ a, (![0, 0] : Fin 2 → Nat) a + S256x384.size a ≤ S256x384.size a
  h_S256x384 : 0 < S256x384.numel
  shapeCasts_S256x384_S256x384 : S256x384.ShapeCasts S256x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  inb_S128x384_S128x384_0_0 : ∀ a, (![0, 0] : Fin 2 → Nat) a + S128x384.size a ≤ S128x384.size a
  h_S128x384 : 0 < S128x384.numel
  shapeCasts_S128x384_S128x384 : S128x384.ShapeCasts S128x384
  slices_S256x384_o0_0_S128x128 : S256x384.Slices ![0, 0] S128x128
  slices_S256x384_o128_0_S128x128 : S256x384.Slices ![128, 0] S128x128
  slices_S1x384_o0_0_S1x128 : S1x384.Slices ![0, 0] S1x128
  slices_S128x384_o0_0_S128x128 : S128x384.Slices ![0, 0] S128x128
  slices_S256x384_o0_128_S128x128 : S256x384.Slices ![0, 128] S128x128
  slices_S256x384_o128_128_S128x128 : S256x384.Slices ![128, 128] S128x128
  slices_S1x384_o0_128_S1x128 : S1x384.Slices ![0, 128] S1x128
  slices_S128x384_o0_128_S128x128 : S128x384.Slices ![0, 128] S128x128
  slices_S256x384_o0_256_S128x128 : S256x384.Slices ![0, 256] S128x128
  slices_S256x384_o128_256_S128x128 : S256x384.Slices ![128, 256] S128x128
  slices_S1x384_o0_256_S1x128 : S1x384.Slices ![0, 256] S1x128
  slices_S128x384_o0_256_S128x128 : S128x384.Slices ![0, 256] S128x128
  gather_S50000x128_S4096x50x1_S4096x50x128_2_0_n_n_0_2_1128_wf : GatherDims.WF S50000x128 S4096x50x1 S4096x50x128 [2] [0] [] [0] [] 2 ![1, 128]
  dot_S1600x128_S128x128_S1600x128_1_0_0_1_n_n_wf : DotDims.WF S1600x128 S128x128 S1600x128 [1] [0] [0] [1] [] []
  dot_S32x50x50_S32x50x128_S32x50x128_2_1_1_2_0_0_wf : DotDims.WF S32x50x50 S32x50x128 S32x50x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x50x128.size a ≤ S4096x50x128.size a
  hwx0_0 : ∀ i : grid0.Coords, EltTy.bits .f32 = 32 ∨ (Rect.block (s := S4096x50x128) S32x50x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x50x100.size a ≤ S4096x50x100.size a
  hwx0_1 : ∀ i : grid0.Coords, EltTy.bits .f32 = 32 ∨ (Rect.block (s := S4096x50x100) S32x50x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x384.size a ≤ S256x384.size a
  hwx0_6 : ∀ i : grid0.Coords, EltTy.bits .f32 = 32 ∨ (Rect.block (s := S256x384) S256x384.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x384.size a ≤ S1x384.size a
  hwx0_7 : ∀ i : grid0.Coords, EltTy.bits .f32 = 32 ∨ (Rect.block (s := S1x384) S1x384.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x384.size a ≤ S128x384.size a
  hwx0_8 : ∀ i : grid0.Coords, EltTy.bits .f32 = 32 ∨ (Rect.block (s := S128x384) S128x384.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x384.size a ≤ S1x384.size a
  hwx0_9 : ∀ i : grid0.Coords, EltTy.bits .f32 = 32 ∨ (Rect.block (s := S1x384) S1x384.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S32x50x128.size a ≤ S4096x50x128.size a
  hwx0_12 : ∀ i : grid0.Coords, EltTy.bits .f32 = 32 ∨ (Rect.block (s := S4096x50x128) S32x50x128.size (cc0_transform_12 i) (hinb0_12 i)).WholeWords (EltTy.packing .f32)

variable [Facts₀]

def gather_S50000x128_S4096x50x1_S4096x50x128_2_0_n_n_0_2_1128 : GatherDims S50000x128 S4096x50x1 S4096x50x128 where
  offsetDims := [2]
  collapsedSliceDims := [0]
  operandBatchingDims := []
  startIndicesBatchingDims := []
  startIndexMap := [0]
  indexVectorDim := 2
  sliceSizes := ![1, 128]
  wf := gather_S50000x128_S4096x50x1_S4096x50x128_2_0_n_n_0_2_1128_wf
def dot_S1600x128_S128x128_S1600x128_1_0_0_1_n_n : DotDims S1600x128 S128x128 S1600x128 where
  lhsContracting := [1]
  rhsContracting := [0]
  lhsNonContracting := [0]
  rhsNonContracting := [1]
  lhsBatch := []
  rhsBatch := []
  wf := dot_S1600x128_S128x128_S1600x128_1_0_0_1_n_n_wf
def dot_S32x50x50_S32x50x128_S32x50x128_2_1_1_2_0_0 : DotDims S32x50x50 S32x50x128 S32x50x128 where
  lhsContracting := [2]
  rhsContracting := [1]
  lhsNonContracting := [1]
  rhsNonContracting := [2]
  lhsBatch := [0]
  rhsBatch := [0]
  wf := dot_S32x50x50_S32x50x128_S32x50x128_2_1_1_2_0_0_wf

abbrev win0_0 : Pipeline.Window sig grid0 :=
  Pipeline.Window.ofSpec (Memref.whole main_v0) S32x50x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x50x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S256x384.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x384.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S128x384.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S1x384.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v10) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v11) S32x50x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S4096x50 : Shape := ⟨2, ![4096, 50]⟩
abbrev S4096x50x100 : Shape := ⟨3, ![4096, 50, 100]⟩
abbrev S50000x128 : Shape := ⟨2, ![50000, 128]⟩
abbrev S128x128 : Shape := ⟨2, ![128, 128]⟩
abbrev S128 : Shape := ⟨1, ![128]⟩
abbrev S384x256 : Shape := ⟨2, ![384, 256]⟩
abbrev S384 : Shape := ⟨1, ![384]⟩
abbrev S384x128 : Shape := ⟨2, ![384, 128]⟩
abbrev S_ : Shape := ⟨0, ![]⟩
abbrev S4096x50x1 : Shape := ⟨3, ![4096, 50, 1]⟩
abbrev S4096x50x128 : Shape := ⟨3, ![4096, 50, 128]⟩
abbrev S4096x50x50 : Shape := ⟨3, ![4096, 50, 50]⟩
abbrev S1x1x128 : Shape := ⟨3, ![1, 1, 128]⟩
abbrev S4096x50x256 : Shape := ⟨3, ![4096, 50, 256]⟩
abbrev S4096x50x384 : Shape := ⟨3, ![4096, 50, 384]⟩
abbrev S1x1x384 : Shape := ⟨3, ![1, 1, 384]⟩

abbrev nBuf : Space → Nat
  | .hbm => 79
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S4096x50x100, .f32⟩
  | .hbm, ⟨2, _⟩ => ⟨S50000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S384x256, .f32⟩
  | .hbm, ⟨8, _⟩ => ⟨S384, .f32⟩
  | .hbm, ⟨9, _⟩ => ⟨S384x128, .f32⟩
  | .hbm, ⟨10, _⟩ => ⟨S384, .f32⟩
  | .hbm, ⟨11, _⟩ => ⟨S128, .f32⟩
  | .hbm, ⟨12, _⟩ => ⟨S128, .f32⟩
  | .hbm, ⟨13, _⟩ => ⟨S_, .i32⟩
  | .hbm, ⟨14, _⟩ => ⟨S4096x50, .i32⟩
  | .hbm, ⟨15, _⟩ => ⟨S4096x50, .i1⟩
  | .hbm, ⟨16, _⟩ => ⟨S_, .i32⟩
  | .hbm, ⟨17, _⟩ => ⟨S4096x50, .i32⟩
  | .hbm, ⟨18, _⟩ => ⟨S4096x50, .i32⟩
  | .hbm, ⟨19, _⟩ => ⟨S4096x50, .i32⟩
  | .hbm, ⟨20, _⟩ => ⟨S4096x50x1, .i32⟩
  | .hbm, ⟨21, _⟩ => ⟨S4096x50x128, .f32⟩
  | .hbm, ⟨22, _⟩ => ⟨S4096x50x50, .f32⟩
  | .hbm, ⟨23, _⟩ => ⟨S4096x50x50, .f32⟩
  | .hbm, ⟨24, _⟩ => ⟨S4096x50x128, .f32⟩
  | .hbm, ⟨25, _⟩ => ⟨S1x1x128, .f32⟩
  | .hbm, ⟨26, _⟩ => ⟨S4096x50x128, .f32⟩
  | .hbm, ⟨27, _⟩ => ⟨S4096x50x128, .f32⟩
  | .hbm, ⟨28, _⟩ => ⟨S4096x50x128, .f32⟩
  | .hbm, ⟨29, _⟩ => ⟨S1x1x128, .f32⟩
  | .hbm, ⟨30, _⟩ => ⟨S4096x50x128, .f32⟩
  | .hbm, ⟨31, _⟩ => ⟨S4096x50x128, .f32⟩
  | .hbm, ⟨32, _⟩ => ⟨S4096x50x128, .f32⟩
  | .hbm, ⟨33, _⟩ => ⟨S1x1x128, .f32⟩
  | .hbm, ⟨34, _⟩ => ⟨S4096x50x128, .f32⟩
  | .hbm, ⟨35, _⟩ => ⟨S4096x50x128, .f32⟩
  | .hbm, ⟨36, _⟩ => ⟨S4096x50x128, .f32⟩
  | .hbm, ⟨37, _⟩ => ⟨S1x1x128, .f32⟩
  | .hbm, ⟨38, _⟩ => ⟨S4096x50x128, .f32⟩
  | .hbm, ⟨39, _⟩ => ⟨S4096x50x128, .f32⟩
  | .hbm, ⟨40, _⟩ => ⟨S4096x50x256, .f32⟩
  | .hbm, ⟨41, _⟩ => ⟨S4096x50x384, .f32⟩
  | .hbm, ⟨42, _⟩ => ⟨S1x1x384, .f32⟩
  | .hbm, ⟨43, _⟩ => ⟨S4096x50x384, .f32⟩
  | .hbm, ⟨44, _⟩ => ⟨S4096x50x384, .f32⟩
  | .hbm, ⟨45, _⟩ => ⟨S4096x50x384, .f32⟩
  | .hbm, ⟨46, _⟩ => ⟨S1x1x384, .f32⟩
  | .hbm, ⟨47, _⟩ => ⟨S4096x50x384, .f32⟩
  | .hbm, ⟨48, _⟩ => ⟨S4096x50x384, .f32⟩
  | .hbm, ⟨49, _⟩ => ⟨S4096x50x128, .f32⟩
  | .hbm, ⟨50, _⟩ => ⟨S4096x50x128, .f32⟩
  | .hbm, ⟨51, _⟩ => ⟨S4096x50x128, .f32⟩
  | .hbm, ⟨52, _⟩ => ⟨S4096x50x128, .f32⟩
  | .hbm, ⟨53, _⟩ => ⟨S4096x50x128, .f32⟩
  | .hbm, ⟨54, _⟩ => ⟨S4096x50x128, .f32⟩
  | .hbm, ⟨55, _⟩ => ⟨S4096x50x128, .f32⟩
  | .hbm, ⟨56, _⟩ => ⟨S4096x50x128, .f32⟩
  | .hbm, ⟨57, _⟩ => ⟨S4096x50x128, .f32⟩
  | .hbm, ⟨58, _⟩ => ⟨S_, .f32⟩
  | .hbm, ⟨59, _⟩ => ⟨S4096x50x128, .f32⟩
  | .hbm, ⟨60, _⟩ => ⟨S4096x50x128, .f32⟩
  | .hbm, ⟨61, _⟩ => ⟨S_, .f32⟩
  | .hbm, ⟨62, _⟩ => ⟨S4096x50x128, .f32⟩
  | .hbm, ⟨63, _⟩ => ⟨S4096x50x128, .f32⟩
  | .hbm, ⟨64, _⟩ => ⟨S4096x50x128, .f32⟩
  | .hbm, ⟨65, _⟩ => ⟨S4096x50x128, .f32⟩
  | .hbm, ⟨66, _⟩ => ⟨S4096x50x128, .f32⟩
  | .hbm, ⟨67, _⟩ => ⟨S_, .f32⟩
  | .hbm, ⟨68, _⟩ => ⟨S4096x50x128, .f32⟩
  | .hbm, ⟨69, _⟩ => ⟨S4096x50x128, .f32⟩
  | .hbm, ⟨70, _⟩ => ⟨S_, .f32⟩
  | .hbm, ⟨71, _⟩ => ⟨S4096x50x128, .f32⟩
  | .hbm, ⟨72, _⟩ => ⟨S4096x50x128, .f32⟩
  | .hbm, ⟨73, _⟩ => ⟨S4096x50x128, .f32⟩
  | .hbm, ⟨74, _⟩ => ⟨S4096x50x128, .f32⟩
  | .hbm, ⟨75, _⟩ => ⟨S4096x50x128, .f32⟩
  | .hbm, ⟨76, _⟩ => ⟨S4096x50x128, .f32⟩
  | .hbm, ⟨77, _⟩ => ⟨S4096x50x128, .f32⟩
  | .hbm, ⟨78, _⟩ => ⟨S4096x50x128, .f32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst : Ref sig .tc := ⟨.hbm, 58, rfl⟩
abbrev main_v43 : Ref sig .tc := ⟨.hbm, 59, rfl⟩
abbrev main_v44 : Ref sig .tc := ⟨.hbm, 60, rfl⟩
abbrev main_cst_1 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_2 : Ref sig .tc := ⟨.hbm, 67, rfl⟩
abbrev main_v50 : Ref sig .tc := ⟨.hbm, 68, rfl⟩
abbrev main_v51 : Ref sig .tc := ⟨.hbm, 69, rfl⟩
abbrev main_cst_3 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩

abbrev nD : Nat := 1
abbrev τ : Topo := Topo.v7x

variable {F : FTy → Type} [FloatOps F]

class Facts₀ : Prop where
  bcast_S_S4096x50 : S_.BroadcastsInDim S4096x50 (![] : Fin 0 → Fin S4096x50.rank)
  bcast_S4096x50_S4096x50x1_0_1 : S4096x50.BroadcastsInDim S4096x50x1 (![0, 1] : Fin 2 → Fin S4096x50x1.rank)
  slices_S4096x50x100_S4096x50x50_0_0_0 : S4096x50x100.Slices ![0, 0, 0] S4096x50x50
  slices_S4096x50x100_S4096x50x50_0_0_50 : S4096x50x100.Slices ![0, 0, 50] S4096x50x50
  bcast_S128_S1x1x128_2 : S128.BroadcastsInDim S1x1x128 (![2] : Fin 1 → Fin S1x1x128.rank)
  bcast_S1x1x128_S4096x50x128_0_1_2 : S1x1x128.BroadcastsInDim S4096x50x128 (![0, 1, 2] : Fin 3 → Fin S4096x50x128.rank)
  concatenates_S4096x50x128_S4096x50x128_S4096x50x256_d2 : Shape.Concatenates [S4096x50x128, S4096x50x128] S4096x50x256 2
  bcast_S384_S1x1x384_2 : S384.BroadcastsInDim S1x1x384 (![2] : Fin 1 → Fin S1x1x384.rank)
  bcast_S1x1x384_S4096x50x384_0_1_2 : S1x1x384.BroadcastsInDim S4096x50x384 (![0, 1, 2] : Fin 3 → Fin S4096x50x384.rank)
  slices_S4096x50x384_S4096x50x128_0_0_0 : S4096x50x384.Slices ![0, 0, 0] S4096x50x128
  slices_S4096x50x384_S4096x50x128_0_0_128 : S4096x50x384.Slices ![0, 0, 128] S4096x50x128
  slices_S4096x50x384_S4096x50x128_0_0_256 : S4096x50x384.Slices ![0, 0, 256] S4096x50x128
  bcast_S_S4096x50x128 : S_.BroadcastsInDim S4096x50x128 (![] : Fin 0 → Fin S4096x50x128.rank)
  gather_S50000x128_S4096x50x1_S4096x50x128_2_0_n_n_0_2_1128_wf : GatherDims.WF S50000x128 S4096x50x1 S4096x50x128 [2] [0] [] [0] [] 2 ![1, 128]
  dot_S4096x50x128_S128x128_S4096x50x128_2_1_01_0_n_n_wf : DotDims.WF S4096x50x128 S128x128 S4096x50x128 [2] [1] [0, 1] [0] [] []
  dot_S4096x50x50_S4096x50x128_S4096x50x128_2_1_1_2_0_0_wf : DotDims.WF S4096x50x50 S4096x50x128 S4096x50x128 [2] [1] [1] [2] [0] [0]
  dot_S4096x50x256_S384x256_S4096x50x384_2_1_01_0_n_n_wf : DotDims.WF S4096x50x256 S384x256 S4096x50x384 [2] [1] [0, 1] [0] [] []
  dot_S4096x50x128_S384x128_S4096x50x384_2_1_01_0_n_n_wf : DotDims.WF S4096x50x128 S384x128 S4096x50x384 [2] [1] [0, 1] [0] [] []

variable [Facts₀]

def gather_S50000x128_S4096x50x1_S4096x50x128_2_0_n_n_0_2_1128 : GatherDims S50000x128 S4096x50x1 S4096x50x128 where
  offsetDims := [2]
  collapsedSliceDims := [0]
  operandBatchingDims := []
  startIndicesBatchingDims := []
  startIndexMap := [0]
  indexVectorDim := 2
  sliceSizes := ![1, 128]
  wf := gather_S50000x128_S4096x50x1_S4096x50x128_2_0_n_n_0_2_1128_wf
def dot_S4096x50x128_S128x128_S4096x50x128_2_1_01_0_n_n : DotDims S4096x50x128 S128x128 S4096x50x128 where
  lhsContracting := [2]
  rhsContracting := [1]
  lhsNonContracting := [0, 1]
  rhsNonContracting := [0]
  lhsBatch := []
  rhsBatch := []
  wf := dot_S4096x50x128_S128x128_S4096x50x128_2_1_01_0_n_n_wf
def dot_S4096x50x50_S4096x50x128_S4096x50x128_2_1_1_2_0_0 : DotDims S4096x50x50 S4096x50x128 S4096x50x128 where
  lhsContracting := [2]
  rhsContracting := [1]
  lhsNonContracting := [1]
  rhsNonContracting := [2]
  lhsBatch := [0]
  rhsBatch := [0]
  wf := dot_S4096x50x50_S4096x50x128_S4096x50x128_2_1_1_2_0_0_wf
def dot_S4096x50x256_S384x256_S4096x50x384_2_1_01_0_n_n : DotDims S4096x50x256 S384x256 S4096x50x384 where
  lhsContracting := [2]
  rhsContracting := [1]
  lhsNonContracting := [0, 1]
  rhsNonContracting := [0]
  lhsBatch := []
  rhsBatch := []
  wf := dot_S4096x50x256_S384x256_S4096x50x384_2_1_01_0_n_n_wf
def dot_S4096x50x128_S384x128_S4096x50x384_2_1_01_0_n_n : DotDims S4096x50x128 S384x128 S4096x50x384 where
  lhsContracting := [2]
  rhsContracting := [1]
  lhsNonContracting := [0, 1]
  rhsNonContracting := [0]
  lhsBatch := []
  rhsBatch := []
  wf := dot_S4096x50x128_S384x128_S4096x50x384_2_1_01_0_n_n_wf

class Facts : Prop extends Facts₀ where

variable [Facts]
-- ==== Proof.GnnSpec.lean ====
/-
  The mathematics of one sample of the gated graph cell, as a function on the extended reals.

  A sample is a sequence of 50 node states of width 128 (`x`), with a 50 × 100 adjacency block `A` whose first 50
  columns weigh incoming edges and whose last 50 columns weigh outgoing edges. With dense layers
  `hin = x · W_inᵀ + b_in` and `hout = x · W_outᵀ + b_out`, the two aggregated messages are
  `a_in = A[:, 0:50] · hin + b_iah` and `a_out = A[:, 50:100] · hout + b_oah`. The GRU gates read the
  concatenation `[a_in, a_out]` through `w_ih` (384 × 256, three gates of 128 rows each) and the state `x` through
  `w_hh` (384 × 128): for a gate at row offset `o ∈ {0, 128, 256}`,
    `gi_o(s, h) = Σ_i a_in(s, i) · w_ih(o + h, i) + Σ_i a_out(s, i) · w_ih(o + h, 128 + i) + b_ih(o + h)`,
    `gh_o(s, h) = Σ_k x(s, k) · w_hh(o + h, k) + b_hh(o + h)`,
  and the new state is `n + z · (x − n)` with `r = σ(gi_0 + gh_0)`, `z = σ(gi_128 + gh_128)`,
  `n = tanh(gi_256 + r · gh_256)`.

  Both programs compute this row by row; the only rearrangement between them is that one contracts the
  concatenation over 256 columns at once and the other contracts its two halves and adds: `sum_split256`.
-/
import Idealize.ShloMosaic.PureOps.Ideal
import Idealize.ShloMosaic.Lib.ValueIdx

noncomputable section

namespace Cert.Gnn

open Idealize.ShloMosaic Idealize.ShloMosaic.ValueIdx

/-- A matrix of extended reals over a literal two-axis shape. -/
abbrev Mat (r c : Nat) : Type := (⟨2, ![r, c]⟩ : Shape).Idx → EReal
/-- A vector of extended reals over a literal one-axis shape. -/
abbrev Vct (n : Nat) : Type := (⟨1, ![n]⟩ : Shape).Idx → EReal

/-- A dense layer on one sample: `(x · Wᵀ + b)(s, g) = Σ_k x(s, k) · W(g, k) + b(g)`. -/
def dense (x : Mat 50 128) (W : Mat 128 128) (b : Vct 128) (s : Fin 50) (g : Fin 128) : EReal :=
  (∑ k : Fin 128, x (ix2 s k) * W (ix2 g k)) + b (ix1 g)

/-- Column `j` of the incoming half of the adjacency block. -/
abbrev colIn (j : Fin 50) : Fin 100 := ⟨j.val, by have := j.isLt; omega⟩
/-- Column `j` of the outgoing half of the adjacency block. -/
abbrev colOut (j : Fin 50) : Fin 100 := ⟨50 + j.val, by have := j.isLt; omega⟩

/-- Incoming aggregation: `Σ_j A(i, j) · y(j, h) + b(h)`. -/
def aggIn (A : Mat 50 100) (y : Fin 50 → Fin 128 → EReal) (b : Vct 128) (i : Fin 50) (h : Fin 128) : EReal :=
  (∑ j : Fin 50, A (ix2 i (colIn j)) * y j h) + b (ix1 h)

/-- Outgoing aggregation: `Σ_j A(i, 50 + j) · y(j, h) + b(h)`. -/
def aggOut (A : Mat 50 100) (y : Fin 50 → Fin 128 → EReal) (b : Vct 128) (i : Fin 50) (h : Fin 128) : EReal :=
  (∑ j : Fin 50, A (ix2 i (colOut j)) * y j h) + b (ix1 h)

/-- Row `o + h` of a 384-row gate matrix, for a gate offset `o` with `o + 128 ≤ 384`. -/
abbrev gateRow (o : Nat) (ho : o + 128 ≤ 384) (h : Fin 128) : Fin 384 := ⟨o + h.val, by have := h.isLt; omega⟩
/-- Column `i` of the first (incoming) half of `w_ih`'s 256 columns. -/
abbrev lo256 (i : Fin 128) : Fin 256 := ⟨i.val, by have := i.isLt; omega⟩
/-- Column `128 + i` of `w_ih`: the second (outgoing) half. -/
abbrev hi256 (i : Fin 128) : Fin 256 := ⟨128 + i.val, by have := i.isLt; omega⟩

/-- The input-side pre-activation of the gate at offset `o`: the two halves of the concatenated message
    contracted separately against the two halves of `w_ih`'s row, then the bias. -/
def gateI (aIn aOut : Fin 50 → Fin 128 → EReal) (w_ih : Mat 384 256) (b_ih : Vct 384) (o : Nat) (ho : o + 128 ≤ 384)
    (s : Fin 50) (h : Fin 128) : EReal :=
  ((∑ i : Fin 128, aIn s i * w_ih (ix2 (gateRow o ho h) (lo256 i)))
    + (∑ i : Fin 128, aOut s i * w_ih (ix2 (gateRow o ho h) (hi256 i)))) + b_ih (ix1 (gateRow o ho h))

/-- The state-side pre-activation of the gate at offset `o`. -/
def gateH (x : Mat 50 128) (w_hh : Mat 384 128) (b_hh : Vct 384) (o : Nat) (ho : o + 128 ≤ 384)
    (s : Fin 50) (h : Fin 128) : EReal :=
  (∑ k : Fin 128, x (ix2 s k) * w_hh (ix2 (gateRow o ho h) k)) + b_hh (ix1 (gateRow o ho h))

/-- The incoming message of one sample. -/
def msgIn (x : Mat 50 128) (A : Mat 50 100) (W_in : Mat 128 128) (b_in : Vct 128) (b_iah : Vct 128) :
    Fin 50 → Fin 128 → EReal :=
  aggIn A (dense x W_in b_in) b_iah

/-- The outgoing message of one sample. -/
def msgOut (x : Mat 50 128) (A : Mat 50 100) (W_out : Mat 128 128) (b_out : Vct 128) (b_oah : Vct 128) :
    Fin 50 → Fin 128 → EReal :=
  aggOut A (dense x W_out b_out) b_oah

/-- The GRU update from the two messages and the state: `n + z · (x − n)`. -/
def gru (x : Mat 50 128) (aIn aOut : Fin 50 → Fin 128 → EReal) (w_ih : Mat 384 256) (b_ih : Vct 384)
    (w_hh : Mat 384 128) (b_hh : Vct 384) (s : Fin 50) (h : Fin 128) : EReal :=
  let r := Ideal.logistic (gateI aIn aOut w_ih b_ih 0 (by omega) s h + gateH x w_hh b_hh 0 (by omega) s h)
  let z := Ideal.logistic (gateI aIn aOut w_ih b_ih 128 (by omega) s h + gateH x w_hh b_hh 128 (by omega) s h)
  let n := Ideal.tanh (gateI aIn aOut w_ih b_ih 256 (by omega) s h + r * gateH x w_hh b_hh 256 (by omega) s h)
  n + z * (x (ix2 s h) - n)

/-- One sample's new state, from its state `x`, its adjacency block `A` and the weights. -/
def cell (x : Mat 50 128) (A : Mat 50 100) (W_in : Mat 128 128) (b_in : Vct 128) (W_out : Mat 128 128) (b_out : Vct 128)
    (w_ih : Mat 384 256) (b_ih : Vct 384) (w_hh : Mat 384 128) (b_hh : Vct 384) (b_iah b_oah : Vct 128)
    (s : Fin 50) (h : Fin 128) : EReal :=
  gru x (msgIn x A W_in b_in b_iah) (msgOut x A W_out b_out b_oah) w_ih b_ih w_hh b_hh s h

/-- Sample `b` of a batch of states, as a matrix. -/
abbrev sampleX {B : Nat} (X : (⟨3, ![B, 50, 128]⟩ : Shape).Idx → EReal) (b : Fin B) : Mat 50 128 :=
  fun j => X (ix3 b (j 0) (j 1))
/-- Sample `b` of a batch of adjacency blocks, as a matrix. -/
abbrev sampleA {B : Nat} (A : (⟨3, ![B, 50, 100]⟩ : Shape).Idx → EReal) (b : Fin B) : Mat 50 100 :=
  fun j => A (ix3 b (j 0) (j 1))

/-- The transposed matrix: `(tr x)(a, b) = x(b, a)`. -/
abbrev tr {r c : Nat} (x : Mat r c) : Mat c r := fun j => x (ix2 (j 1) (j 0))
/-- The one row of a 1 × n matrix, as a vector. -/
abbrev row0 {n : Nat} (x : Mat 1 n) : Vct n := fun j => x (ix2 (0 : Fin 1) (j 0))
/-- Row `t · 50 + s` of the 1600-row matrix that lays 32 samples of 50 rows one after another. -/
abbrev flatRow (t : Fin 32) (s : Fin 50) : Fin 1600 := ⟨t.val * 50 + s.val, by have := t.isLt; have := s.isLt; omega⟩

/-- A sum over 256 columns is the sum over the first 128 plus the sum over the last 128 (extended-real
    addition is commutative and associative, so no finiteness is needed). -/
theorem sum_split256 (f : Fin 256 → EReal) :
    (∑ i : Fin 256, f i) = (∑ i : Fin 128, f (lo256 i)) + (∑ i : Fin 128, f (hi256 i)) := by
  have h := Fin.sum_univ_add (a := 128) (b := 128) (fun i : Fin (128 + 128) => f ⟨i.val, by have := i.isLt; omega⟩)
  have e : (∑ i : Fin 256, f i) = ∑ i : Fin (128 + 128), f ⟨i.val, by have := i.isLt; omega⟩ := rfl
  rw [e, h]
  congr 1

end Cert.Gnn

end
-- ==== Proof.KOps.lean ====
/-
  The body's building blocks on a block of 32 samples, each read at an entry: the 1600 × 128 by 128 × 128 matrix
  product and the batched 50 × 50 by 50 × 128 product as sums over the contracted axis, the two reshapes between
  32 × 50 rows and 1600 rows (row `t · 50 + s` is sample `t`'s row `s`), and a one-row bias repeated over rows.
-/
import proofs.«427578_j65025804861642_4_alg».proof.Proof.Gen.KernelIdeal.Skeleton
import proofs.«427578_j65025804861642_4_alg».proof.Proof.GnnSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KOps

open Cert.KernelIdeal Cert.KernelIdeal.Gen Idealize.ShloMosaic Idealize.ShloMosaic.ValueIdx Cert.Gnn

/-! ## The plain product's operand indices, axis by axis

The record contracts the left operand's axis 1 against the right operand's axis 0; the left operand's axis 0 and the
right operand's axis 1 are kept, in that order, as the result's two axes. -/

/-- The left operand is read in the result's row. -/
theorem mm_lhs_0 (i : S1600x128.Idx) (q : dot_S1600x128_S128x128_S1600x128_1_0_0_1_n_n.contr.Idx) :
    (dot_S1600x128_S128x128_S1600x128_1_0_0_1_n_n.lhsIdx i q 0).val = (i 0).val := by
  unfold DotDims.lhsIdx
  rw [dif_neg (show ¬(0 : Fin S1600x128.rank) ∈ dot_S1600x128_S128x128_S1600x128_1_0_0_1_n_n.lhsBatch by decide),
    dif_pos (show (0 : Fin S1600x128.rank) ∈ dot_S1600x128_S128x128_S1600x128_1_0_0_1_n_n.lhsNonContracting by decide)]
  rfl
/-- The left operand's column is the contraction index. -/
theorem mm_lhs_1 (i : S1600x128.Idx) (q : dot_S1600x128_S128x128_S1600x128_1_0_0_1_n_n.contr.Idx) :
    (dot_S1600x128_S128x128_S1600x128_1_0_0_1_n_n.lhsIdx i q 1).val = (q ⟨0, by decide⟩).val :=
  dot_S1600x128_S128x128_S1600x128_1_0_0_1_n_n.lhsIdx_val_of_single rfl i q
/-- The right operand's row is the contraction index. -/
theorem mm_rhs_0 (i : S1600x128.Idx) (q : dot_S1600x128_S128x128_S1600x128_1_0_0_1_n_n.contr.Idx) :
    (dot_S1600x128_S128x128_S1600x128_1_0_0_1_n_n.rhsIdx i q 0).val = (q ⟨0, by decide⟩).val :=
  dot_S1600x128_S128x128_S1600x128_1_0_0_1_n_n.rhsIdx_val_of_single rfl i q
/-- The right operand is read in the result's column. -/
theorem mm_rhs_1 (i : S1600x128.Idx) (q : dot_S1600x128_S128x128_S1600x128_1_0_0_1_n_n.contr.Idx) :
    (dot_S1600x128_S128x128_S1600x128_1_0_0_1_n_n.rhsIdx i q 1).val = (i 1).val := by
  unfold DotDims.rhsIdx
  rw [dif_neg (show ¬(1 : Fin S128x128.rank) ∈ dot_S1600x128_S128x128_S1600x128_1_0_0_1_n_n.rhsBatch by decide),
    dif_pos (show (1 : Fin S128x128.rank) ∈ dot_S1600x128_S128x128_S1600x128_1_0_0_1_n_n.rhsNonContracting by decide)]
  rfl

/-! ## The batched product's operand indices, axis by axis

Axis 0 is a batch axis of both operands and of the result; the left operand's axis 2 is contracted against the right
operand's axis 1; the left operand's axis 1 and the right operand's axis 2 are the result's axes 1 and 2. -/

/-- The left operand is read in the result's sample. -/
theorem bmm_lhs_0 (i : S32x50x128.Idx) (q : dot_S32x50x50_S32x50x128_S32x50x128_2_1_1_2_0_0.contr.Idx) :
    (dot_S32x50x50_S32x50x128_S32x50x128_2_1_1_2_0_0.lhsIdx i q 0).val = (i 0).val := by
  unfold DotDims.lhsIdx
  rw [dif_pos (show (0 : Fin S32x50x50.rank) ∈ dot_S32x50x50_S32x50x128_S32x50x128_2_1_1_2_0_0.lhsBatch by decide)]
  rfl
/-- The left operand is read in the result's row. -/
theorem bmm_lhs_1 (i : S32x50x128.Idx) (q : dot_S32x50x50_S32x50x128_S32x50x128_2_1_1_2_0_0.contr.Idx) :
    (dot_S32x50x50_S32x50x128_S32x50x128_2_1_1_2_0_0.lhsIdx i q 1).val = (i 1).val := by
  unfold DotDims.lhsIdx
  rw [dif_neg (show ¬(1 : Fin S32x50x50.rank) ∈ dot_S32x50x50_S32x50x128_S32x50x128_2_1_1_2_0_0.lhsBatch by decide),
    dif_pos (show (1 : Fin S32x50x50.rank) ∈ dot_S32x50x50_S32x50x128_S32x50x128_2_1_1_2_0_0.lhsNonContracting by decide)]
  rfl
/-- The left operand's column is the contraction index. -/
theorem bmm_lhs_2 (i : S32x50x128.Idx) (q : dot_S32x50x50_S32x50x128_S32x50x128_2_1_1_2_0_0.contr.Idx) :
    (dot_S32x50x50_S32x50x128_S32x50x128_2_1_1_2_0_0.lhsIdx i q 2).val = (q ⟨0, by decide⟩).val :=
  dot_S32x50x50_S32x50x128_S32x50x128_2_1_1_2_0_0.lhsIdx_val_of_single rfl i q
/-- The right operand is read in the result's sample. -/
theorem bmm_rhs_0 (i : S32x50x128.Idx) (q : dot_S32x50x50_S32x50x128_S32x50x128_2_1_1_2_0_0.contr.Idx) :
    (dot_S32x50x50_S32x50x128_S32x50x128_2_1_1_2_0_0.rhsIdx i q 0).val = (i 0).val := by
  unfold DotDims.rhsIdx
  rw [dif_pos (show (0 : Fin S32x50x128.rank) ∈ dot_S32x50x50_S32x50x128_S32x50x128_2_1_1_2_0_0.rhsBatch by decide)]
  rfl
/-- The right operand's row is the contraction index. -/
theorem bmm_rhs_1 (i : S32x50x128.Idx) (q : dot_S32x50x50_S32x50x128_S32x50x128_2_1_1_2_0_0.contr.Idx) :
    (dot_S32x50x50_S32x50x128_S32x50x128_2_1_1_2_0_0.rhsIdx i q 1).val = (q ⟨0, by decide⟩).val :=
  dot_S32x50x50_S32x50x128_S32x50x128_2_1_1_2_0_0.rhsIdx_val_of_single rfl i q
/-- The right operand is read in the result's column. -/
theorem bmm_rhs_2 (i : S32x50x128.Idx) (q : dot_S32x50x50_S32x50x128_S32x50x128_2_1_1_2_0_0.contr.Idx) :
    (dot_S32x50x50_S32x50x128_S32x50x128_2_1_1_2_0_0.rhsIdx i q 2).val = (i 2).val := by
  unfold DotDims.rhsIdx
  rw [dif_neg (show ¬(2 : Fin S32x50x128.rank) ∈ dot_S32x50x50_S32x50x128_S32x50x128_2_1_1_2_0_0.rhsBatch by decide),
    dif_pos (show (2 : Fin S32x50x128.rank) ∈ dot_S32x50x50_S32x50x128_S32x50x128_2_1_1_2_0_0.rhsNonContracting by decide)]
  rfl

/-- A 1600 × 128 by 128 × 128 product into a zero accumulator, at an entry: the sum over the contracted axis. -/
theorem mm_apply (x : FVec Ideal S1600x128 .f32) (w : FVec Ideal S128x128 .f32) (r : Fin 1600) (g : Fin 128) :
    matmul dot_S1600x128_S128x128_S1600x128_1_0_0_1_n_n none x w (constant S1600x128 .f32 0x00000000#32) (ix2 r g)
      = ∑ k : Fin 128, x (ix2 r k) * w (ix2 k g) := by
  refine (Ideal.matmul_constant_zero_apply dot_S1600x128_S128x128_S1600x128_1_0_0_1_n_n none x w (ix2 r g)).trans ?_
  rw [← Equiv.sum_comp (contrEquiv1 dot_S1600x128_S128x128_S1600x128_1_0_0_1_n_n 128 rfl rfl).symm]
  refine Finset.sum_congr rfl fun k _ => ?_
  -- the contraction shape's one coordinate is `k`
  have hk := contrEquiv1_symm_val dot_S1600x128_S128x128_S1600x128_1_0_0_1_n_n 128 rfl rfl k
  have el : dot_S1600x128_S128x128_S1600x128_1_0_0_1_n_n.lhsIdx (ix2 r g) ((contrEquiv1 dot_S1600x128_S128x128_S1600x128_1_0_0_1_n_n 128 rfl rfl).symm k) = ix2 r k :=
    funext fun a => Fin.ext (by
      match a with
      | ⟨0, _⟩ => exact mm_lhs_0 _ _
      | ⟨1, _⟩ => exact (mm_lhs_1 _ _).trans hk)
  have er : dot_S1600x128_S128x128_S1600x128_1_0_0_1_n_n.rhsIdx (ix2 r g) ((contrEquiv1 dot_S1600x128_S128x128_S1600x128_1_0_0_1_n_n 128 rfl rfl).symm k) = ix2 k g :=
    funext fun a => Fin.ext (by
      match a with
      | ⟨0, _⟩ => exact (mm_rhs_0 _ _).trans hk
      | ⟨1, _⟩ => exact mm_rhs_1 _ _)
  rw [el, er]

/-- The batched product of 32 adjacency blocks (50 × 50) with 32 state blocks (50 × 128) into a zero accumulator,
    at an entry: sample by sample, the sum over the contracted node axis. -/
theorem bmm_apply (a : FVec Ideal S32x50x50 .f32) (y : FVec Ideal S32x50x128 .f32) (t : Fin 32) (i : Fin 50) (h : Fin 128) :
    matmul dot_S32x50x50_S32x50x128_S32x50x128_2_1_1_2_0_0 none a y (constant S32x50x128 .f32 0x00000000#32) (ix3 t i h)
      = ∑ j : Fin 50, a (ix3 t i j) * y (ix3 t j h) := by
  refine (Ideal.matmul_constant_zero_apply dot_S32x50x50_S32x50x128_S32x50x128_2_1_1_2_0_0 none a y (ix3 t i h)).trans ?_
  rw [← Equiv.sum_comp (contrEquiv1 dot_S32x50x50_S32x50x128_S32x50x128_2_1_1_2_0_0 50 rfl rfl).symm]
  refine Finset.sum_congr rfl fun j _ => ?_
  -- the contraction shape's one coordinate is `j`
  have hj := contrEquiv1_symm_val dot_S32x50x50_S32x50x128_S32x50x128_2_1_1_2_0_0 50 rfl rfl j
  have el : dot_S32x50x50_S32x50x128_S32x50x128_2_1_1_2_0_0.lhsIdx (ix3 t i h) ((contrEquiv1 dot_S32x50x50_S32x50x128_S32x50x128_2_1_1_2_0_0 50 rfl rfl).symm j) = ix3 t i j :=
    funext fun a => Fin.ext (by
      match a with
      | ⟨0, _⟩ => exact bmm_lhs_0 _ _
      | ⟨1, _⟩ => exact bmm_lhs_1 _ _
      | ⟨2, _⟩ => exact (bmm_lhs_2 _ _).trans hj)
  have er : dot_S32x50x50_S32x50x128_S32x50x128_2_1_1_2_0_0.rhsIdx (ix3 t i h) ((contrEquiv1 dot_S32x50x50_S32x50x128_S32x50x128_2_1_1_2_0_0 50 rfl rfl).symm j) = ix3 t j h :=
    funext fun a => Fin.ext (by
      match a with
      | ⟨0, _⟩ => exact bmm_rhs_0 _ _
      | ⟨1, _⟩ => exact (bmm_rhs_1 _ _).trans hj
      | ⟨2, _⟩ => exact bmm_rhs_2 _ _)
  rw [el, er]

/-- Laying 32 samples of 50 rows one after another: row `t · 50 + s` is sample `t`'s row `s`. -/
theorem flat_apply (v : FVec Ideal S32x50x128 .f32) (t : Fin 32) (s : Fin 50) (k : Fin 128) :
    shapeCast S1600x128 v shapeCasts_S32x50x128_S1600x128 (ix2 (flatRow t s) k) = v (ix3 t s k) := by
  -- both indices sit at row-major position (t · 50 + s) · 128 + k
  refine shapeCast_apply v shapeCasts_S32x50x128_S1600x128 (ix2 (flatRow t s) k) (ix3 t s k) ?_
  rw [Shape.rowMajor_val_three, Shape.rowMajor_val_two]
  rfl

/-- And back: sample `t`'s row `s` is row `t · 50 + s`. -/
theorem unflat_apply (v : FVec Ideal S1600x128 .f32) (t : Fin 32) (s : Fin 50) (k : Fin 128) :
    shapeCast S32x50x128 v shapeCasts_S1600x128_S32x50x128 (ix3 t s k) = v (ix2 (flatRow t s) k) := by
  -- both indices sit at row-major position (t · 50 + s) · 128 + k
  refine shapeCast_apply v shapeCasts_S1600x128_S32x50x128 (ix3 t s k) (ix2 (flatRow t s) k) ?_
  rw [Shape.rowMajor_val_three, Shape.rowMajor_val_two]
  rfl

/-- A one-row bias repeated down 1600 rows. -/
theorem bias_rows_apply (v : FVec Ideal S1x128 .f32) (r : Fin 1600) (g : Fin 128) :
    broadcastTo S1600x128 v broadcasts_S1x128_S1600x128 (ix2 r g) = v (ix2 (0 : Fin 1) g) := by
  -- the operand's axis 0 has size one (read at 0); its axis 1 is the result's axis 1
  refine broadcastTo_apply v broadcasts_S1x128_S1600x128 (ix2 r g) (ix2 (0 : Fin 1) g) fun a => ?_
  match a with
  | ⟨0, _⟩ => rfl
  | ⟨1, _⟩ => rfl

/-- A one-row bias repeated over every sample and every row of a 32 × 50 × 128 block. -/
theorem bias_block_apply (v : FVec Ideal S1x128 .f32) (t : Fin 32) (s : Fin 50) (h : Fin 128) :
    broadcastTo S32x50x128 (shapeCast S1x1x128 v shapeCasts_S1x128_S1x1x128) broadcasts_S1x1x128_S32x50x128 (ix3 t s h)
      = v (ix2 (0 : Fin 1) h) := by
  -- the broadcast: the operand's axes 0 and 1 have size one (read at 0); its axis 2 is the result's axis 2
  refine (broadcastTo_apply (shapeCast S1x1x128 v shapeCasts_S1x128_S1x1x128) broadcasts_S1x1x128_S32x50x128
    (ix3 t s h) (ix3 (0 : Fin 1) (0 : Fin 1) h) fun a => ?_).trans ?_
  · match a with
    | ⟨0, _⟩ => rfl
    | ⟨1, _⟩ => rfl
    | ⟨2, _⟩ => rfl
  -- the reshape: (0, 0, h) and (0, h) both sit at row-major position h
  refine shapeCast_apply v shapeCasts_S1x128_S1x1x128 (ix3 (0 : Fin 1) (0 : Fin 1) h) (ix2 (0 : Fin 1) h) ?_
  rw [Shape.rowMajor_val_three, Shape.rowMajor_val_two]
  rfl

end Cert.KernelIdeal.KOps

end
-- ==== Proof.KMsg.lean ====
/-
  The first half of the body on a block of 32 samples: a dense layer on the 1600 stacked rows, reshaped back to
  samples, aggregated over each sample's nodes by one half of its adjacency block, plus a bias — read at an entry, the
  incoming and outgoing messages of the specification.
-/
import proofs.«427578_j65025804861642_4_alg».proof.Proof.Gen.KernelIdeal.Skeleton
import proofs.«427578_j65025804861642_4_alg».proof.Proof.GnnSpec
import proofs.«427578_j65025804861642_4_alg».proof.Proof.KOps
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KMsg

open Cert.KernelIdeal Cert.KernelIdeal.Gen Idealize.ShloMosaic Idealize.ShloMosaic.ValueIdx Cert.Gnn Cert.KernelIdeal.KOps

/-- The identity shape cast of the loaded state block. -/
theorem pay2_eq (v0 : Vec Ideal S32x50x128 .f32) : k0_pay2 (F := Ideal) v0 = v0 := by
  unfold k0_pay2
  exact shapeCast_self v0 shapeCasts_S32x50x128_S32x50x128

/-- The state block laid out as 1600 rows: row `t · 50 + s` is sample `t`'s row `s`. -/
theorem pay3_apply (v0 : Vec Ideal S32x50x128 .f32) (t : Fin 32) (s : Fin 50) (k : Fin 128) :
    k0_pay3 (F := Ideal) v0 (ix2 (flatRow t s) k) = v0 (ix3 t s k) := by
  unfold k0_pay3
  refine (flat_apply (k0_pay2 (F := Ideal) v0) t s k).trans ?_
  rw [pay2_eq]

/-- A dense layer on the 1600 stacked rows: the product with the weight into a zero accumulator plus the
    one-row bias repeated down the rows, at an entry. -/
theorem denseStage_apply (x : FVec Ideal S1600x128 .f32) (w : FVec Ideal S128x128 .f32) (b : FVec Ideal S1x128 .f32)
    (r : Fin 1600) (g : Fin 128) :
    addf (matmul dot_S1600x128_S128x128_S1600x128_1_0_0_1_n_n none x
            (shapeCast S128x128 w shapeCasts_S128x128_S128x128) (constant (F := Ideal) S1600x128 .f32 0x00000000#32))
          (broadcastTo S1600x128 (shapeCast S1x128 b shapeCasts_S1x128_S1x128) broadcasts_S1x128_S1600x128) (ix2 r g)
      = (∑ k : Fin 128, x (ix2 r k) * w (ix2 k g)) + b (ix2 (0 : Fin 1) g) := by
  refine (addf_apply _ _ _).trans ?_
  rw [shapeCast_self w shapeCasts_S128x128_S128x128, shapeCast_self b shapeCasts_S1x128_S1x128]
  rw [mm_apply x w r g, bias_rows_apply b r g]

/-- An aggregation over the nodes of each sample: the batched product of the adjacency half with the dense
    layer's rows regrouped by sample, plus the one-row bias, laid out again as 1600 rows, at an entry. -/
theorem aggStage_apply (a : FVec Ideal S32x50x50 .f32) (y : FVec Ideal S1600x128 .f32) (b : FVec Ideal S1x128 .f32)
    (t : Fin 32) (s : Fin 50) (i : Fin 128) :
    shapeCast S1600x128
        (addf (matmul dot_S32x50x50_S32x50x128_S32x50x128_2_1_1_2_0_0 none a
                (shapeCast S32x50x128 y shapeCasts_S1600x128_S32x50x128) (constant (F := Ideal) S32x50x128 .f32 0x00000000#32))
              (broadcastTo S32x50x128
                (shapeCast S1x1x128 (shapeCast S1x128 b shapeCasts_S1x128_S1x128) shapeCasts_S1x128_S1x1x128)
                broadcasts_S1x1x128_S32x50x128))
        shapeCasts_S32x50x128_S1600x128 (ix2 (flatRow t s) i)
      = (∑ j : Fin 50, a (ix3 t s j) * y (ix2 (flatRow t j) i)) + b (ix2 (0 : Fin 1) i) := by
  refine (flat_apply _ t s i).trans ?_
  refine (addf_apply _ _ _).trans ?_
  rw [shapeCast_self b shapeCasts_S1x128_S1x128]
  rw [bmm_apply a _ t s i, bias_block_apply b t s i]
  refine congrArg (· + b (ix2 (0 : Fin 1) i)) ?_
  refine Finset.sum_congr rfl fun j _ => ?_
  rw [unflat_apply y t j i]

/-- The incoming half of the adjacency block at an entry: column `j` of the slice is column `j` of the block. -/
theorem sliceIn_apply (v2 : Vec Ideal S32x50x100 .f32) (t : Fin 32) (s : Fin 50) (j : Fin 50) :
    extractStridedSlice S32x50x50 ![0, 0, 0] v2 slices_S32x50x100_o0_0_0_S32x50x50 (ix3 t s j) = v2 (ix3 t s (colIn j)) := by
  refine extractStridedSlice_apply _ v2 _ (ix3 t s j) (ix3 t s (colIn j)) fun a => ?_
  match a with
  | ⟨0, _⟩ => show t.val = 0 + t.val; omega
  | ⟨1, _⟩ => show s.val = 0 + s.val; omega
  | ⟨2, _⟩ => show j.val = 0 + j.val; omega

/-- The outgoing half of the adjacency block at an entry: column `j` of the slice is column `50 + j` of the block. -/
theorem sliceOut_apply (v2 : Vec Ideal S32x50x100 .f32) (t : Fin 32) (s : Fin 50) (j : Fin 50) :
    extractStridedSlice S32x50x50 ![0, 0, 50] v2 slices_S32x50x100_o0_0_50_S32x50x50 (ix3 t s j) = v2 (ix3 t s (colOut j)) := by
  refine extractStridedSlice_apply _ v2 _ (ix3 t s j) (ix3 t s (colOut j)) fun a => ?_
  match a with
  | ⟨0, _⟩ => show t.val = 0 + t.val; omega
  | ⟨1, _⟩ => show s.val = 0 + s.val; omega
  | ⟨2, _⟩ => show 50 + j.val = 50 + j.val; rfl

/-- The incoming message, as the body computes it on a block of 32 samples, is the specification's
    `msgIn` of each sample. -/
theorem pay4_apply (v0 : Vec Ideal S32x50x128 .f32) (v2 : Vec Ideal S32x50x100 .f32) (v6 : Vec Ideal S128x128 .f32)
    (v11 v23 : Vec Ideal S1x128 .f32) (t : Fin 32) (s : Fin 50) (i : Fin 128) :
    k0_pay4 (F := Ideal) v0 v2 v6 v11 v23 (ix2 (flatRow t s) i)
      = msgIn (sampleX v0 t) (sampleA v2 t) (tr v6) (row0 v11) (row0 v23) s i := by
  unfold k0_pay4
  refine (aggStage_apply _ _ v23 t s i).trans ?_
  unfold msgIn aggIn
  refine congrArg (· + v23 (ix2 (0 : Fin 1) i)) ?_
  refine Finset.sum_congr rfl fun j _ => ?_
  rw [sliceIn_apply v2 t s j, denseStage_apply _ v6 v11 (flatRow t j) i]
  unfold dense
  simp only [pay3_apply v0 t j]

/-- The outgoing message likewise. -/
theorem pay5_apply (v0 : Vec Ideal S32x50x128 .f32) (v2 : Vec Ideal S32x50x100 .f32) (v8 : Vec Ideal S128x128 .f32)
    (v16 v29 : Vec Ideal S1x128 .f32) (t : Fin 32) (s : Fin 50) (i : Fin 128) :
    k0_pay5 (F := Ideal) v0 v2 v8 v16 v29 (ix2 (flatRow t s) i)
      = msgOut (sampleX v0 t) (sampleA v2 t) (tr v8) (row0 v16) (row0 v29) s i := by
  unfold k0_pay5
  refine (aggStage_apply _ _ v29 t s i).trans ?_
  unfold msgOut aggOut
  refine congrArg (· + v29 (ix2 (0 : Fin 1) i)) ?_
  refine Finset.sum_congr rfl fun j _ => ?_
  rw [sliceOut_apply v2 t s j, denseStage_apply _ v8 v16 (flatRow t j) i]
  unfold dense
  simp only [pay3_apply v0 t j]

end Cert.KernelIdeal.KMsg

end
-- ==== Proof.KGru.lean ====
/-
  The second half of the body on a block of 32 samples: for each of the three gates, the two messages against the
  gate's column block of the transposed input-side weight (its first and last 128 rows) and the state against the
  gate's column block of the transposed state-side weight, with the gate's slice of each bias; then the logistic,
  the hyperbolic tangent and the GRU update — read at an entry, the specification's `gru`.
-/
import proofs.«427578_j65025804861642_4_alg».proof.Proof.Gen.KernelIdeal.Skeleton
import proofs.«427578_j65025804861642_4_alg».proof.Proof.GnnSpec
import proofs.«427578_j65025804861642_4_alg».proof.Proof.KOps
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KGru

open Cert.KernelIdeal Cert.KernelIdeal.Gen Idealize.ShloMosaic Idealize.ShloMosaic.ValueIdx Cert.Gnn Cert.KernelIdeal.KOps

/-- The block of 128 rows from `r0` and 128 columns from `c0` of the 256 × 384 input-side weight, read at `(k, g)`,
    is the weight at `(r0 + k, c0 + g)`. -/
theorem slice_ih (v36 : Vec Ideal S256x384 .f32) (r0 c0 : Nat) (hs : S256x384.Slices ![r0, c0] S128x128)
    (k g : Fin 128) (p : Fin 256) (q : Fin 384) (hp : p.val = r0 + k.val) (hq : q.val = c0 + g.val) :
    extractStridedSlice S128x128 ![r0, c0] (k0_pay6 v36) hs (ix2 k g) = v36 (ix2 p q) := by
  unfold k0_pay6
  rw [shapeCast_self]
  exact extractStridedSlice_apply _ _ _ _ _ (fun a => match a with | ⟨0, _⟩ => hp | ⟨1, _⟩ => hq)

/-- The block of 128 columns from `c0` of the 128 × 384 state-side weight, read at `(k, g)`, is the weight at
    `(k, c0 + g)`. -/
theorem slice_hh (v40 : Vec Ideal S128x384 .f32) (c0 : Nat) (hs : S128x384.Slices ![0, c0] S128x128)
    (k g : Fin 128) (q : Fin 384) (hq : q.val = c0 + g.val) :
    extractStridedSlice S128x128 ![0, c0] (k0_pay8 v40) hs (ix2 k g) = v40 (ix2 k q) := by
  unfold k0_pay8
  rw [shapeCast_self]
  exact extractStridedSlice_apply _ _ _ _ _ (fun a => match a with | ⟨0, _⟩ => (Nat.zero_add _).symm | ⟨1, _⟩ => hq)

/-- A message times the first 128 rows of the gate's column block: the contraction against the incoming half of
    the gate's row of `w_ih`. -/
theorem mm_lo (a : FVec Ideal S1600x128 .f32) (v36 : Vec Ideal S256x384 .f32) (o : Nat) (ho : o + 128 ≤ 384)
    (hs : S256x384.Slices ![0, o] S128x128) (r : Fin 1600) (g : Fin 128) :
    matmul dot_S1600x128_S128x128_S1600x128_1_0_0_1_n_n none a
        (extractStridedSlice S128x128 ![0, o] (k0_pay6 v36) hs) (constant S1600x128 .f32 0x00000000#32) (ix2 r g)
      = ∑ i : Fin 128, a (ix2 r i) * tr v36 (ix2 (gateRow o ho g) (lo256 i)) := by
  rw [mm_apply]
  refine Finset.sum_congr rfl fun i _ => ?_
  exact congrArg (a (ix2 r i) * ·) (slice_ih v36 0 o hs i g (lo256 i) (gateRow o ho g) (Nat.zero_add _).symm rfl)

/-- A message times the last 128 rows of the gate's column block: the contraction against the outgoing half of
    the gate's row of `w_ih`. -/
theorem mm_hi (b : FVec Ideal S1600x128 .f32) (v36 : Vec Ideal S256x384 .f32) (o : Nat) (ho : o + 128 ≤ 384)
    (hs : S256x384.Slices ![128, o] S128x128) (r : Fin 1600) (g : Fin 128) :
    matmul dot_S1600x128_S128x128_S1600x128_1_0_0_1_n_n none b
        (extractStridedSlice S128x128 ![128, o] (k0_pay6 v36) hs) (constant S1600x128 .f32 0x00000000#32) (ix2 r g)
      = ∑ i : Fin 128, b (ix2 r i) * tr v36 (ix2 (gateRow o ho g) (hi256 i)) := by
  rw [mm_apply]
  refine Finset.sum_congr rfl fun i _ => ?_
  exact congrArg (b (ix2 r i) * ·) (slice_ih v36 128 o hs i g (hi256 i) (gateRow o ho g) rfl rfl)

/-- The state times the gate's column block of the state-side weight: the contraction against the gate's row of
    `w_hh`. -/
theorem mm_hh (x : FVec Ideal S1600x128 .f32) (v40 : Vec Ideal S128x384 .f32) (o : Nat) (ho : o + 128 ≤ 384)
    (hs : S128x384.Slices ![0, o] S128x128) (r : Fin 1600) (g : Fin 128) :
    matmul dot_S1600x128_S128x128_S1600x128_1_0_0_1_n_n none x
        (extractStridedSlice S128x128 ![0, o] (k0_pay8 v40) hs) (constant S1600x128 .f32 0x00000000#32) (ix2 r g)
      = ∑ k : Fin 128, x (ix2 r k) * tr v40 (ix2 (gateRow o ho g) k) := by
  rw [mm_apply]
  refine Finset.sum_congr rfl fun k _ => ?_
  exact congrArg (x (ix2 r k) * ·) (slice_hh v40 o hs k g (gateRow o ho g) rfl)

/-- The gate's 128 entries of the input-side bias, repeated down the rows. -/
theorem bias_ih (v38 : Vec Ideal S1x384 .f32) (o : Nat) (ho : o + 128 ≤ 384) (hs : S1x384.Slices ![0, o] S1x128)
    (r : Fin 1600) (g : Fin 128) :
    broadcastTo S1600x128 (extractStridedSlice S1x128 ![0, o] (k0_pay7 v38) hs) broadcasts_S1x128_S1600x128 (ix2 r g)
      = row0 v38 (ix1 (gateRow o ho g)) := by
  rw [bias_rows_apply]
  unfold k0_pay7
  rw [shapeCast_self]
  show _ = v38 (ix2 (0 : Fin 1) (gateRow o ho g))
  exact extractStridedSlice_apply _ _ _ _ _ (fun a => match a with | ⟨0, _⟩ => rfl | ⟨1, _⟩ => rfl)

/-- The gate's 128 entries of the state-side bias, repeated down the rows. -/
theorem bias_hh (v42 : Vec Ideal S1x384 .f32) (o : Nat) (ho : o + 128 ≤ 384) (hs : S1x384.Slices ![0, o] S1x128)
    (r : Fin 1600) (g : Fin 128) :
    broadcastTo S1600x128 (extractStridedSlice S1x128 ![0, o] (k0_pay9 v42) hs) broadcasts_S1x128_S1600x128 (ix2 r g)
      = row0 v42 (ix1 (gateRow o ho g)) := by
  rw [bias_rows_apply]
  unfold k0_pay9
  rw [shapeCast_self]
  show _ = v42 (ix2 (0 : Fin 1) (gateRow o ho g))
  exact extractStridedSlice_apply _ _ _ _ _ (fun a => match a with | ⟨0, _⟩ => rfl | ⟨1, _⟩ => rfl)

/-- The input-side pre-activation of the gate at column offset `o`, assembled from its three pieces at row
    `t · 50 + s`. -/
theorem gateI_read (a b : FVec Ideal S1600x128 .f32) (v36 : Vec Ideal S256x384 .f32) (v38 : Vec Ideal S1x384 .f32)
    (o : Nat) (ho : o + 128 ≤ 384) (h1 : S256x384.Slices ![0, o] S128x128) (h2 : S256x384.Slices ![128, o] S128x128)
    (h3 : S1x384.Slices ![0, o] S1x128) (t : Fin 32) (s : Fin 50) (h : Fin 128) :
    (matmul dot_S1600x128_S128x128_S1600x128_1_0_0_1_n_n none a
          (extractStridedSlice S128x128 ![0, o] (k0_pay6 v36) h1) (constant S1600x128 .f32 0x00000000#32) (ix2 (flatRow t s) h)
        + matmul dot_S1600x128_S128x128_S1600x128_1_0_0_1_n_n none b
          (extractStridedSlice S128x128 ![128, o] (k0_pay6 v36) h2) (constant S1600x128 .f32 0x00000000#32) (ix2 (flatRow t s) h))
      + broadcastTo S1600x128 (extractStridedSlice S1x128 ![0, o] (k0_pay7 v38) h3) broadcasts_S1x128_S1600x128 (ix2 (flatRow t s) h)
      = gateI (fun s' i => a (ix2 (flatRow t s') i)) (fun s' i => b (ix2 (flatRow t s') i)) (tr v36) (row0 v38) o ho s h := by
  rw [mm_lo a v36 o ho h1, mm_hi b v36 o ho h2, bias_ih v38 o ho h3]
  rfl

/-- The state-side pre-activation of the gate at column offset `o`, from its two pieces at row `t · 50 + s`, where
    the 1600-row state matrix is the state block laid out row after row. -/
theorem gateH_read (v1 : FVec Ideal S32x50x128 .f32) (v5 : FVec Ideal S1600x128 .f32) (v40 : Vec Ideal S128x384 .f32)
    (v42 : Vec Ideal S1x384 .f32) (o : Nat) (ho : o + 128 ≤ 384) (h1 : S128x384.Slices ![0, o] S128x128)
    (h3 : S1x384.Slices ![0, o] S1x128) (t : Fin 32)
    (h5 : ∀ (s : Fin 50) (k : Fin 128), v5 (ix2 (flatRow t s) k) = v1 (ix3 t s k)) (s : Fin 50) (h : Fin 128) :
    matmul dot_S1600x128_S128x128_S1600x128_1_0_0_1_n_n none v5
          (extractStridedSlice S128x128 ![0, o] (k0_pay8 v40) h1) (constant S1600x128 .f32 0x00000000#32) (ix2 (flatRow t s) h)
      + broadcastTo S1600x128 (extractStridedSlice S1x128 ![0, o] (k0_pay9 v42) h3) broadcasts_S1x128_S1600x128 (ix2 (flatRow t s) h)
      = gateH (sampleX v1 t) (tr v40) (row0 v42) o ho s h := by
  rw [mm_hh v5 v40 o ho h1, bias_hh v42 o ho h3]
  unfold gateH
  refine congrArg (· + row0 v42 (ix1 (gateRow o ho h))) (Finset.sum_congr rfl fun k _ => ?_)
  exact congrArg (· * tr v40 (ix2 (gateRow o ho h) k)) (h5 s k)

/-- The logistic of a vector, at an entry. -/
theorem logistic_apply {s : Shape} (x : FVec Ideal s .f32) (i : s.Idx) :
    Idealize.ShloMosaic.logistic x i = Ideal.logistic (x i) := rfl

/-- The hyperbolic tangent of a vector, at an entry. -/
theorem tanh_apply {s : Shape} (x : FVec Ideal s .f32) (i : s.Idx) :
    Idealize.ShloMosaic.tanh x i = Ideal.tanh (x i) := rfl

/-- The reset gate's input side (column offset 0). -/
theorem pay10_apply (a b : FVec Ideal S1600x128 .f32) (v36 : Vec Ideal S256x384 .f32) (v38 : Vec Ideal S1x384 .f32)
    (t : Fin 32) (s : Fin 50) (h : Fin 128) :
    k0_pay10 (F := Ideal) a b v36 v38 (ix3 t s h)
      = gateI (fun s' i => a (ix2 (flatRow t s') i)) (fun s' i => b (ix2 (flatRow t s') i)) (tr v36) (row0 v38) 0 (by omega) s h := by
  unfold k0_pay10
  refine (unflat_apply _ t s h).trans ?_
  exact gateI_read a b v36 v38 0 (by omega) _ _ _ t s h

/-- The update gate's input side (column offset 128). -/
theorem pay12_apply (a b : FVec Ideal S1600x128 .f32) (v36 : Vec Ideal S256x384 .f32) (v38 : Vec Ideal S1x384 .f32)
    (t : Fin 32) (s : Fin 50) (h : Fin 128) :
    k0_pay12 (F := Ideal) a b v36 v38 (ix3 t s h)
      = gateI (fun s' i => a (ix2 (flatRow t s') i)) (fun s' i => b (ix2 (flatRow t s') i)) (tr v36) (row0 v38) 128 (by omega) s h := by
  unfold k0_pay12
  refine (unflat_apply _ t s h).trans ?_
  exact gateI_read a b v36 v38 128 (by omega) _ _ _ t s h

/-- The reset gate's state side (column offset 0). -/
theorem pay11_apply (v1 : FVec Ideal S32x50x128 .f32) (v5 : FVec Ideal S1600x128 .f32) (v40 : Vec Ideal S128x384 .f32)
    (v42 : Vec Ideal S1x384 .f32) (t : Fin 32)
    (h5 : ∀ (s : Fin 50) (k : Fin 128), v5 (ix2 (flatRow t s) k) = v1 (ix3 t s k)) (s : Fin 50) (h : Fin 128) :
    k0_pay11 (F := Ideal) v5 v40 v42 (ix3 t s h) = gateH (sampleX v1 t) (tr v40) (row0 v42) 0 (by omega) s h := by
  unfold k0_pay11
  refine (unflat_apply _ t s h).trans ?_
  exact gateH_read v1 v5 v40 v42 0 (by omega) _ _ t h5 s h

/-- The update gate's state side (column offset 128). -/
theorem pay13_apply (v1 : FVec Ideal S32x50x128 .f32) (v5 : FVec Ideal S1600x128 .f32) (v40 : Vec Ideal S128x384 .f32)
    (v42 : Vec Ideal S1x384 .f32) (t : Fin 32)
    (h5 : ∀ (s : Fin 50) (k : Fin 128), v5 (ix2 (flatRow t s) k) = v1 (ix3 t s k)) (s : Fin 50) (h : Fin 128) :
    k0_pay13 (F := Ideal) v5 v40 v42 (ix3 t s h) = gateH (sampleX v1 t) (tr v40) (row0 v42) 128 (by omega) s h := by
  unfold k0_pay13
  refine (unflat_apply _ t s h).trans ?_
  exact gateH_read v1 v5 v40 v42 128 (by omega) _ _ t h5 s h

/-- The candidate's input side (column offset 256), which the last stage adds up from its three pieces. -/
theorem cand_in_apply (a b : FVec Ideal S1600x128 .f32) (v36 : Vec Ideal S256x384 .f32) (v38 : Vec Ideal S1x384 .f32)
    (t : Fin 32) (s : Fin 50) (h : Fin 128) :
    shapeCast S32x50x128
        (addf (addf (k0_pay17 (F := Ideal) a v36) (k0_pay18 b v36)) (broadcastTo S1600x128 (k0_pay14 v38) broadcasts_S1x128_S1600x128))
        shapeCasts_S1600x128_S32x50x128 (ix3 t s h)
      = gateI (fun s' i => a (ix2 (flatRow t s') i)) (fun s' i => b (ix2 (flatRow t s') i)) (tr v36) (row0 v38) 256 (by omega) s h := by
  unfold k0_pay17 k0_pay18 k0_pay14
  refine (unflat_apply _ t s h).trans ?_
  exact gateI_read a b v36 v38 256 (by omega) _ _ _ t s h

/-- The candidate's state side (column offset 256), which the last stage adds up from its two pieces. -/
theorem cand_st_apply (v1 : FVec Ideal S32x50x128 .f32) (v5 : FVec Ideal S1600x128 .f32) (v40 : Vec Ideal S128x384 .f32)
    (v42 : Vec Ideal S1x384 .f32) (t : Fin 32)
    (h5 : ∀ (s : Fin 50) (k : Fin 128), v5 (ix2 (flatRow t s) k) = v1 (ix3 t s k)) (s : Fin 50) (h : Fin 128) :
    shapeCast S32x50x128
        (addf (matmul dot_S1600x128_S128x128_S1600x128_1_0_0_1_n_n none v5 (k0_pay15 (F := Ideal) v40) (constant S1600x128 .f32 0x00000000#32))
          (broadcastTo S1600x128 (k0_pay16 v42) broadcasts_S1x128_S1600x128))
        shapeCasts_S1600x128_S32x50x128 (ix3 t s h)
      = gateH (sampleX v1 t) (tr v40) (row0 v42) 256 (by omega) s h := by
  unfold k0_pay15 k0_pay16
  refine (unflat_apply _ t s h).trans ?_
  exact gateH_read v1 v5 v40 v42 256 (by omega) _ _ t h5 s h

/-- The gate arithmetic of the body on a block of 32 samples is the specification's `gru` of each sample:
    `v1` is the state block, `v5` the same block laid out as 1600 rows (`h5`), `a` and `b` the two messages as
    1600-row matrices, and the weights arrive transposed, the biases as one-row matrices. -/
theorem gru_apply (v1 : FVec Ideal S32x50x128 .f32) (v5 a b : FVec Ideal S1600x128 .f32)
    (v36 : Vec Ideal S256x384 .f32) (v38 : Vec Ideal S1x384 .f32) (v40 : Vec Ideal S128x384 .f32) (v42 : Vec Ideal S1x384 .f32)
    (t : Fin 32) (h5 : ∀ (s : Fin 50) (k : Fin 128), v5 (ix2 (flatRow t s) k) = v1 (ix3 t s k)) (s : Fin 50) (h : Fin 128) :
    k0_pay1 (F := Ideal) v1 v5 (k0_pay10 a b v36 v38) (k0_pay11 v5 v40 v42) (k0_pay12 a b v36 v38) (k0_pay13 v5 v40 v42)
        (k0_pay14 v38) (k0_pay15 v40) (k0_pay16 v42) (k0_pay17 a v36) (k0_pay18 b v36) (ix3 t s h)
      = gru (sampleX v1 t) (fun s' i => a (ix2 (flatRow t s') i)) (fun s' i => b (ix2 (flatRow t s') i))
          (tr v36) (row0 v38) (tr v40) (row0 v42) s h := by
  unfold k0_pay1
  simp only [addf_apply, mulf_apply, subf_apply, logistic_apply, tanh_apply]
  rw [pay10_apply a b v36 v38 t s h, pay11_apply v1 v5 v40 v42 t h5 s h, pay12_apply a b v36 v38 t s h,
    pay13_apply v1 v5 v40 v42 t h5 s h, cand_in_apply a b v36 v38 t s h, cand_st_apply v1 v5 v40 v42 t h5 s h]
  rfl

end Cert.KernelIdeal.KGru

end
-- ==== Proof.GnnNet.lean ====
/-
  The whole batch: the gated graph cell applied to each of the 4096 samples, as one function of the state array, the
  adjacency array and the weights, index by index.
-/
import proofs.«427578_j65025804861642_4_alg».proof.Proof.GnnSpec

noncomputable section

namespace Cert.Gnn

open Idealize.ShloMosaic Idealize.ShloMosaic.ValueIdx

/-- Entry `(b, s, h)` of the result is entry `(s, h)` of sample `b`'s `cell`. -/
def net (X : (⟨3, ![4096, 50, 128]⟩ : Shape).Idx → EReal) (A : (⟨3, ![4096, 50, 100]⟩ : Shape).Idx → EReal)
    (W_in : Mat 128 128) (b_in : Vct 128) (W_out : Mat 128 128) (b_out : Vct 128)
    (w_ih : Mat 384 256) (b_ih : Vct 384) (w_hh : Mat 384 128) (b_hh : Vct 384) (b_iah b_oah : Vct 128) :
    (⟨3, ![4096, 50, 128]⟩ : Shape).Idx → EReal :=
  fun i => cell (sampleX X (i 0)) (sampleA A (i 0)) W_in b_in W_out b_out w_ih b_ih w_hh b_hh b_iah b_oah (i 1) (i 2)

end Cert.Gnn

end
-- ==== Proof.KCell.lean ====
/-
  The kernel program's result array as one function of the arrays its region finds.

  The region runs the body once per block of 32 samples (grid point `t` works on samples `32·t … 32·t + 31`) and
  writes block `t` of the result. The body's result block, read at a block-local index `(t', s, h)`, is the gated
  graph cell of sample `t'` of the state and adjacency blocks (the two halves of the body, joined); block `t` of an
  array at `(t', s, h)` is the array at `(32·t + t', s, h)`, and the weight windows are the whole weight arrays at
  every point. So point `t` writes back exactly block `t` of `net`, the blocks cover the result, and the result array
  ends holding `net` of the region-entry arrays.
-/
import proofs.«427578_j65025804861642_4_alg».proof.Proof.Gen.KernelIdeal.Value
import proofs.«427578_j65025804861642_4_alg».proof.Proof.KMsg
import proofs.«427578_j65025804861642_4_alg».proof.Proof.KGru
import proofs.«427578_j65025804861642_4_alg».proof.Proof.GnnNet

set_option maxRecDepth 16384

noncomputable section

namespace Cert.KernelIdeal.KCell

open Cert.KernelIdeal Cert.KernelIdeal.Gen Idealize.ShloMosaic Idealize.ShloMosaic.TcCoe Idealize.SL.Sem
open Idealize.ShloMosaic.ValueIdx Cert.Gnn
open Idealize.ShloMosaic.Pipeline (Dat)

theorem hz3 : (![0, 0, 0] : Fin 3 → Nat) = fun _ => 0 := funext fun a => by fin_cases a <;> rfl
theorem hz2 : (![0, 0] : Fin 2 → Nat) = fun _ => 0 := funext fun a => by fin_cases a <;> rfl

/-- The body's result block at a block-local index is the cell of that sample of the state and adjacency blocks,
    with the weights transposed back and the biases read off their one row. -/
theorem out_apply (x0 : Vec Ideal S32x50x128 .f32) (x1 : Vec Ideal S32x50x100 .f32) (x2 : Vec Ideal S128x128 .f32)
    (x3 : Vec Ideal S1x128 .f32) (x4 : Vec Ideal S128x128 .f32) (x5 : Vec Ideal S1x128 .f32) (x6 : Vec Ideal S256x384 .f32)
    (x7 : Vec Ideal S1x384 .f32) (x8 : Vec Ideal S128x384 .f32) (x9 : Vec Ideal S1x384 .f32) (x10 x11 : Vec Ideal S1x128 .f32)
    (t : Fin 32) (s : Fin 50) (h : Fin 128) :
    out0_12 (F := Ideal) x0 x1 x2 x3 x4 x5 x6 x7 x8 x9 x10 x11 (ix3 t s h)
      = cell (sampleX x0 t) (sampleA x1 t) (tr x2) (row0 x3) (tr x4) (row0 x5) (tr x6) (row0 x7) (tr x8) (row0 x9)
          (row0 x10) (row0 x11) s h := by
  unfold out0_12
  rw [View.canon_unit_zero hz3]
  simp only [View.ld_unit_zero (S := S32x50x128) hz3, View.ld_unit_zero (S := S32x50x100) hz3,
    View.ld_unit_zero (S := S128x128) hz2, View.ld_unit_zero (S := S1x128) hz2, View.ld_unit_zero (S := S256x384) hz2,
    View.ld_unit_zero (S := S1x384) hz2, View.ld_unit_zero (S := S128x384) hz2]
  refine (KGru.gru_apply (k0_pay2 x0) (k0_pay3 x0) (k0_pay4 x0 x1 x2 x3 x10) (k0_pay5 x0 x1 x4 x5 x11) x6 x7 x8 x9 t
    (fun s' k => by rw [KMsg.pay2_eq]; exact KMsg.pay3_apply x0 t s' k) s h).trans ?_
  have e4 : (fun (s' : Fin 50) (i : Fin 128) => k0_pay4 (F := Ideal) x0 x1 x2 x3 x10 (ix2 (flatRow t s') i))
      = msgIn (sampleX x0 t) (sampleA x1 t) (tr x2) (row0 x3) (row0 x10) :=
    funext fun s' => funext fun i => KMsg.pay4_apply x0 x1 x2 x3 x10 t s' i
  have e5 : (fun (s' : Fin 50) (i : Fin 128) => k0_pay5 (F := Ideal) x0 x1 x4 x5 x11 (ix2 (flatRow t s') i))
      = msgOut (sampleX x0 t) (sampleA x1 t) (tr x4) (row0 x5) (row0 x11) :=
    funext fun s' => funext fun i => KMsg.pay5_apply x0 x1 x4 x5 x11 t s' i
  rw [e4, e5, KMsg.pay2_eq]
  rfl

variable (m : (ℓ : Loc nD τ sig) → Buf (Elt Ideal) ℓ) (ρ : Dev nD → PrngReg)

/-- `net` of the arrays the region finds: the state array, the adjacency array, the transposed weights transposed
    back, the one-row biases read off their row. -/
abbrev netV (c : Dev nD) : S4096x50x128.Idx → EReal :=
  net (V m c main_v0) (V m c main_arg1) (tr (V m c main_v1)) (row0 (V m c main_v5)) (tr (V m c main_v2)) (row0 (V m c main_v6))
    (tr (V m c main_v3)) (row0 (V m c main_v7)) (tr (V m c main_v4)) (row0 (V m c main_v8)) (row0 (V m c main_v9)) (row0 (V m c main_v10))

/-- The printed index maps over the grid: the state, adjacency and result windows take block `t` along the sample
    axis at point `t`; every weight and bias window is the whole array at every point. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_12.index t (0 : Fin 3) = t.val ∧ win0_12.index t (1 : Fin 3) = 0 ∧ win0_12.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0) :=
  (by decide +kernel : ∀ t : Fin grid0.N, _)

/-- Sample `32·t + t'` of the batch. -/
abbrev samp (t : Fin cfg0.N) (t' : Fin 32) : Fin 4096 := ⟨t.val * 32 + t'.val, by have ht : t.val < 128 := t.isLt; have := t'.isLt; show t.val * 32 + t'.val < 4096; omega⟩

/-- Sample `t'` of the state window's block at point `t` is sample `32·t + t'` of the state array. -/
theorem blkX (c : Dev nD) (t : Fin cfg0.N) (t' : Fin 32) :
    sampleX (iblk m c 0 t) t' = sampleX (V m c main_v0) (samp t t') := by
  obtain ⟨⟨a0, a1, a2⟩, -⟩ := idx_facts t
  funext j
  show V m c main_v0 (((cfg0.win 0).blk t).view.emb (ix3 t' (j 0) (j 1))) = V m c main_v0 (ix3 (samp t t') (j 0) (j 1))
  refine congrArg (V m c main_v0) (funext fun a => Fin.ext ?_)
  match a with
  | ⟨0, _⟩ => show win0_0.index t (0 : Fin 3) * 32 + 1 * t'.val = t.val * 32 + t'.val; omega
  | ⟨1, _⟩ => show win0_0.index t (1 : Fin 3) * 50 + 1 * (j 0).val = (j 0).val; omega
  | ⟨2, _⟩ => show win0_0.index t (2 : Fin 3) * 128 + 1 * (j 1).val = (j 1).val; omega

/-- Sample `t'` of the adjacency window's block at point `t` is sample `32·t + t'` of the adjacency array. -/
theorem blkA (c : Dev nD) (t : Fin cfg0.N) (t' : Fin 32) :
    sampleA (iblk m c 1 t) t' = sampleA (V m c main_arg1) (samp t t') := by
  obtain ⟨-, ⟨b0, b1, b2⟩, -⟩ := idx_facts t
  funext j
  show V m c main_arg1 (((cfg0.win 1).blk t).view.emb (ix3 t' (j 0) (j 1))) = V m c main_arg1 (ix3 (samp t t') (j 0) (j 1))
  refine congrArg (V m c main_arg1) (funext fun a => Fin.ext ?_)
  match a with
  | ⟨0, _⟩ => show win0_1.index t (0 : Fin 3) * 32 + 1 * t'.val = t.val * 32 + t'.val; omega
  | ⟨1, _⟩ => show win0_1.index t (1 : Fin 3) * 50 + 1 * (j 0).val = (j 0).val; omega
  | ⟨2, _⟩ => show win0_1.index t (2 : Fin 3) * 100 + 1 * (j 1).val = (j 1).val; omega

/-- Window 2 is the whole array at every point. -/
theorem iblk_2 (c : Dev nD) (t : Fin cfg0.N) : (iblk m c 2 t : S128x128.Idx → EReal) = V m c main_v1 := by
  obtain ⟨-, -, -, ⟨q0, q1⟩, -, -, -, -, -, -, -, -, -⟩ := idx_facts t
  funext y
  show V m c main_v1 (((cfg0.win 2).blk t).view.emb y) = V m c main_v1 y
  refine congrArg (V m c main_v1) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- Window 3 is the whole array at every point. -/
theorem iblk_3 (c : Dev nD) (t : Fin cfg0.N) : (iblk m c 3 t : S1x128.Idx → EReal) = V m c main_v5 := by
  obtain ⟨-, -, -, -, ⟨q0, q1⟩, -, -, -, -, -, -, -, -⟩ := idx_facts t
  funext y
  show V m c main_v5 (((cfg0.win 3).blk t).view.emb y) = V m c main_v5 y
  refine congrArg (V m c main_v5) (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- Window 4 is the whole array at every point. -/
theorem iblk_4 (c : Dev nD) (t : Fin cfg0.N) : (iblk m c 4 t : S128x128.Idx → EReal) = V m c main_v2 := by
  obtain ⟨-, -, -, -, -, ⟨q0, q1⟩, -, -, -, -, -, -, -⟩ := idx_facts t
  funext y
  show V m c main_v2 (((cfg0.win 4).blk t).view.emb y) = V m c main_v2 y
  refine congrArg (V m c main_v2) (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- Window 5 is the whole array at every point. -/
theorem iblk_5 (c : Dev nD) (t : Fin cfg0.N) : (iblk m c 5 t : S1x128.Idx → EReal) = V m c main_v6 := by
  obtain ⟨-, -, -, -, -, -, ⟨q0, q1⟩, -, -, -, -, -, -⟩ := idx_facts t
  funext y
  show V m c main_v6 (((cfg0.win 5).blk t).view.emb y) = V m c main_v6 y
  refine congrArg (V m c main_v6) (funext fun a => Fin.ext ?_)
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- Window 6 is the whole array at every point. -/
theorem iblk_6 (c : Dev nD) (t : Fin cfg0.N) : (iblk m c 6 t : S256x384.Idx → EReal) = V m c main_v3 := by
  obtain ⟨-, -, -, -, -, -, -, ⟨q0, q1⟩, -, -, -, -, -⟩ := idx_facts t
  funext y
  show V m c main_v3 (((cfg0.win 6).blk t).view.emb y) = V m c main_v3 y
  refine congrArg (V m c main_v3) (funext fun a => Fin.ext ?_)
  match a with
  | ⟨0, _⟩ => show win0_6.index t (0 : Fin 2) * 256 + 1 * (y 0).val = (y 0).val; omega
  | ⟨1, _⟩ => show win0_6.index t (1 : Fin 2) * 384 + 1 * (y 1).val = (y 1).val; omega

/-- Window 7 is the whole array at every point. -/
theorem iblk_7 (c : Dev nD) (t : Fin cfg0.N) : (iblk m c 7 t : S1x384.Idx → EReal) = V m c main_v7 := by
  obtain ⟨-, -, -, -, -, -, -, -, ⟨q0, q1⟩, -, -, -, -⟩ := idx_facts t
  funext y
  show V m c main_v7 (((cfg0.win 7).blk t).view.emb y) = V m c main_v7 y
  refine congrArg (V m c main_v7) (funext fun a => Fin.ext ?_)
  match a with
  | ⟨0, _⟩ => show win0_7.index t (0 : Fin 2) * 1 + 1 * (y 0).val = (y 0).val; omega
  | ⟨1, _⟩ => show win0_7.index t (1 : Fin 2) * 384 + 1 * (y 1).val = (y 1).val; omega

/-- Window 8 is the whole array at every point. -/
theorem iblk_8 (c : Dev nD) (t : Fin cfg0.N) : (iblk m c 8 t : S128x384.Idx → EReal) = V m c main_v4 := by
  obtain ⟨-, -, -, -, -, -, -, -, -, ⟨q0, q1⟩, -, -, -⟩ := idx_facts t
  funext y
  show V m c main_v4 (((cfg0.win 8).blk t).view.emb y) = V m c main_v4 y
  refine congrArg (V m c main_v4) (funext fun a => Fin.ext ?_)
  match a with
  | ⟨0, _⟩ => show win0_8.index t (0 : Fin 2) * 128 + 1 * (y 0).val = (y 0).val; omega
  | ⟨1, _⟩ => show win0_8.index t (1 : Fin 2) * 384 + 1 * (y 1).val = (y 1).val; omega

/-- Window 9 is the whole array at every point. -/
theorem iblk_9 (c : Dev nD) (t : Fin cfg0.N) : (iblk m c 9 t : S1x384.Idx → EReal) = V m c main_v8 := by
  obtain ⟨-, -, -, -, -, -, -, -, -, -, ⟨q0, q1⟩, -, -⟩ := idx_facts t
  funext y
  show V m c main_v8 (((cfg0.win 9).blk t).view.emb y) = V m c main_v8 y
  refine congrArg (V m c main_v8) (funext fun a => Fin.ext ?_)
  match a with
  | ⟨0, _⟩ => show win0_9.index t (0 : Fin 2) * 1 + 1 * (y 0).val = (y 0).val; omega
  | ⟨1, _⟩ => show win0_9.index t (1 : Fin 2) * 384 + 1 * (y 1).val = (y 1).val; omega

/-- Window 10 is the whole array at every point. -/
theorem iblk_10 (c : Dev nD) (t : Fin cfg0.N) : (iblk m c 10 t : S1x128.Idx → EReal) = V m c main_v9 := by
  obtain ⟨-, -, -, -, -, -, -, -, -, -, -, ⟨q0, q1⟩, -⟩ := idx_facts t
  funext y
  show V m c main_v9 (((cfg0.win 10).blk t).view.emb y) = V m c main_v9 y
  refine congrArg (V m c main_v9) (funext fun a => Fin.ext ?_)
  match a with
  | ⟨0, _⟩ => show win0_10.index t (0 : Fin 2) * 1 + 1 * (y 0).val = (y 0).val; omega
  | ⟨1, _⟩ => show win0_10.index t (1 : Fin 2) * 128 + 1 * (y 1).val = (y 1).val; omega

/-- Window 11 is the whole array at every point. -/
theorem iblk_11 (c : Dev nD) (t : Fin cfg0.N) : (iblk m c 11 t : S1x128.Idx → EReal) = V m c main_v10 := by
  obtain ⟨-, -, -, -, -, -, -, -, -, -, -, -, ⟨q0, q1⟩⟩ := idx_facts t
  funext y
  show V m c main_v10 (((cfg0.win 11).blk t).view.emb y) = V m c main_v10 y
  refine congrArg (V m c main_v10) (funext fun a => Fin.ext ?_)
  match a with
  | ⟨0, _⟩ => show win0_11.index t (0 : Fin 2) * 1 + 1 * (y 0).val = (y 0).val; omega
  | ⟨1, _⟩ => show win0_11.index t (1 : Fin 2) * 128 + 1 * (y 1).val = (y 1).val; omega

/-- Block-local index `(t', s, h)` of the result window's block at point `t` is index `(32·t + t', s, h)` of the array. -/
theorem emb_out (t : Fin cfg0.N) (t' : Fin 32) (s : Fin 50) (h : Fin 128) :
    ((cfg0.win 12).blk t).view.emb (ix3 t' s h) = ix3 (samp t t') s h := by
  obtain ⟨-, -, ⟨o0, o1, o2⟩, -⟩ := idx_facts t
  funext a
  apply Fin.ext
  match a with
  | ⟨0, _⟩ => show win0_12.index t (0 : Fin 3) * 32 + 1 * t'.val = t.val * 32 + t'.val; omega
  | ⟨1, _⟩ => show win0_12.index t (1 : Fin 3) * 50 + 1 * s.val = s.val; omega
  | ⟨2, _⟩ => show win0_12.index t (2 : Fin 3) * 128 + 1 * h.val = h.val; omega

set_option maxHeartbeats 1000000 in
/-- What point `t` writes back is block `t` of `net` of the region-entry arrays. -/
theorem flushed_eq (c : Dev nD) (t : Fin cfg0.N) :
    (dats m 0 c).flushed 12 t = ((cfg0.win 12).blk t).view.read (Elt Ideal) (netV m c) := by
  rw [Value.flushed12]
  funext j
  obtain ⟨t', s, h, rfl⟩ : ∃ (t' : Fin 32) (s : Fin 50) (h : Fin 128), j = ix3 t' s h := ⟨j 0, j 1, j 2, eq_ix3 j⟩
  show out0_12 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (ix3 t' s h)
    = netV m c (((cfg0.win 12).blk t).view.emb (ix3 t' s h))
  refine (out_apply (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) t' s h).trans ?_
  rw [emb_out, blkX, blkA, iblk_2, iblk_3, iblk_4, iblk_5, iblk_6, iblk_7, iblk_8, iblk_9, iblk_10, iblk_11]
  rfl

/-- An index of the result array is in point `t`'s block iff each coordinate is in the block's range on its axis. -/
theorem mem_blk (t : Fin cfg0.N) (i : S4096x50x128.Idx) :
    i ∈ ((cfg0.win 12).blk t).view.set ↔ ∀ a : Fin 3, win0_12.index t a * S32x50x128.size a ≤ (i a).val
      ∧ (i a).val < win0_12.index t a * S32x50x128.size a + S32x50x128.size a := by
  show i ∈ ((View.whole main_v11).slice (win0_12.rect t)).set ↔ _
  rw [View.set_slice_whole, Rect.mem_set_unit]
  exact Iff.rfl

/-- Every index of the result array lies in the block of the point that works on its sample: point `b / 32`. -/
theorem cover (i : S4096x50x128.Idx) :
    ∃ t : Fin cfg0.N, (cfg0.win 12).flush t = true ∧ i ∈ ((cfg0.win 12).blk t).view.set := by
  have hi0 : (i 0).val < 4096 := (i 0).isLt
  have hi1 : (i 1).val < 50 := (i 1).isLt
  have hi2 : (i 2).val < 128 := (i 2).isLt
  let t : Fin cfg0.N := ⟨(i 0).val / 32, by show (i 0).val / 32 < 128; omega⟩
  obtain ⟨-, -, ⟨o0, o1, o2⟩, -⟩ := idx_facts t
  have ht : (t : Fin cfg0.N).val = (i 0).val / 32 := rfl
  refine ⟨t, flush0_12 t, ?_⟩
  rw [mem_blk]
  intro a
  match a with
  | ⟨0, _⟩ => show win0_12.index t (0 : Fin 3) * 32 ≤ (i 0).val ∧ (i 0).val < win0_12.index t (0 : Fin 3) * 32 + 32; omega
  | ⟨1, _⟩ => show win0_12.index t (1 : Fin 3) * 50 ≤ (i 1).val ∧ (i 1).val < win0_12.index t (1 : Fin 3) * 50 + 50; omega
  | ⟨2, _⟩ => show win0_12.index t (2 : Fin 3) * 128 ≤ (i 2).val ∧ (i 2).val < win0_12.index t (2 : Fin 3) * 128 + 128; omega

/-- The result array after the run is `net` of the region-entry arrays. -/
theorem final (c : Dev nD) : (dats m 0 c).arrAt 12 cfg0.N = netV m c :=
  (dats m 0 c).arrAt_eq_of_cover 12 (netV m c) (fun t _ => flushed_eq m c t) cover

end Cert.KernelIdeal.KCell

end
-- ==== Proof.Hidden.lean ====
/-
  The kernel program's state array, read under the precondition.

  The program looks rows of the embedding table up with `jnp.take`: an index below zero is first wrapped by the table's
  height, and a row whose wrapped index lies outside `[0, 49999]` is filled with a not-a-number pattern instead of a
  table row. The precondition says every index is in `[0, 50000)`; then no wrapping happens, every row's range test
  holds, and the array is exactly the gathered rows — the term the reference program computes for the same indices.
-/
import proofs.«427578_j65025804861642_4_alg».proof.Defs
import proofs.«427578_j65025804861642_4_alg».proof.Proof.Gen.KernelIdeal.Frame
import proofs.«427578_j65025804861642_4_alg».proof.Proof.Gen.ReferenceIdeal.Read
import Idealize.ShloMosaic.Lib.StableHlo.Run
import Idealize.ShloMosaic.Lib.ReduceAll
import Idealize.ShloMosaic.Lib.ValueIdx
import Idealize.ShloMosaic.PureOps.Ideal

noncomputable section

namespace Cert.KernelIdeal.Hidden

open Cert.KernelIdeal Cert.KernelIdeal.Gen Idealize.ShloMosaic Idealize.ShloMosaic.TcCoe Idealize.SL.Sem
open Idealize.ShloMosaic.StableHlo

/-! ## A conjunction of ones is one -/

/-- A reduction by `and` from an initial one over an array of ones is one, at every result index. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  unfold Host.reduce
  have key : ∀ (l : List (Fin s.numel)) (r : BitVec 1), r = 1#1 →
      l.foldl (fun r n => IntOp.andi r (x (s.rowMajor.symm n))) r = 1#1 := by
    intro l
    induction l with
    | nil => intro r hr; exact hr
    | cons a l ih =>
      intro r hr
      rw [List.foldl_cons]
      apply ih
      rw [hr, hx]
      rfl
  exact key _ _ (hinit _)

/-! ## The index words -/

/-- The index array after the wrap of negative indices: `i + 50000` where `i < 0`, else `i`. -/
def wrapped (a0 : IVec S4096x50 32) : IVec S4096x50 32 :=
  select (cmpi .slt a0 (broadcastInDim S4096x50 ![] bcast_S_S4096x50 (constantI S_ 32 0#32)))
    (addi a0 (broadcastInDim S4096x50 ![] bcast_S_S4096x50 (constantI S_ 32 50000#32))) a0

/-- The wrapped indices with a trailing unit axis: the gather's start indices. -/
def starts (a0 : IVec S4096x50 32) : IVec S4096x50x1 32 :=
  broadcastInDim S4096x50x1 ![0, 1] bcast_S4096x50_S4096x50x1_0_1 (wrapped a0)

/-- The range test `0 ≤ i ≤ 49999` of each start index. -/
def inRange (a0 : IVec S4096x50 32) : IVec S4096x50x1 1 :=
  andi (cmpi .sge (starts a0) (broadcastInDim S4096x50x1 ![] bcast_S_S4096x50x1 (constantI S_ 32 0#32)))
    (cmpi .sle (starts a0) (broadcastInDim S4096x50x1 ![0, 1, 2] bcast_S1x1x1_S4096x50x1_0_1_2
      (broadcastInDim S1x1x1 ![2] bcast_S1_S1x1x1_2 (constantI S1 32 49999#32))))

/-- The gathered rows. -/
def rows (a0 : IVec S4096x50 32) (emb : FVec Ideal S50000x128 .f32) : FVec Ideal S4096x50x128 .f32 :=
  Host.gather gather_S50000x128_S4096x50x1_S4096x50x128_2_0_n_n_0_2_1128 emb (starts a0)

/-- The state array as the program builds it: the gathered row where the row's range test holds, the fill elsewhere. -/
def taken (a0 : IVec S4096x50 32) (emb : FVec Ideal S50000x128 .f32) : FVec Ideal S4096x50x128 .f32 :=
  select (broadcastInDim S4096x50x128 ![0, 1] bcast_S4096x50_S4096x50x128_0_1
      (Host.reduce IntOp.andi (inRange a0) (constantI S_ 1 1#1) reducesTo_S4096x50x1_S4096x50_d2 h_S_))
    (rows a0 emb)
    (broadcastInDim S4096x50x128 ![] bcast_S_S4096x50x128 (constant S_ .f32 0x7FC00000#32))

variable (m : (ℓ : Loc nD τ sig) → Buf (Elt Ideal) ℓ)

set_option maxRecDepth 200000 in
set_option maxHeartbeats 4000000 in
/-- The region finds the state array at `taken` of the index and table arguments. -/
theorem V_main_v0 (c : Dev nD) :
    (V m c main_v0 : S4096x50x128.Idx → EReal)
      = taken (m ((c : Thread nD τ).loc main_arg0)) (m ((c : Thread nD τ).loc main_arg2)) := by
  dsimp only [V]
  simp only [hostOps0, hostOps0_1, List.flatten_cons, List.flatten_nil, List.append_nil, List.cons_append, List.nil_append]
  after_results_simp
  unfold taken rows inRange starts wrapped
  simp only [cast_eq]

/-! ## In range, the fill is never chosen -/

section InRange

variable (a0 : IVec S4096x50 32) (emb : FVec Ideal S50000x128 .f32)
variable (hr : ∀ i : S4096x50.Idx, 0 ≤ (a0 i).toInt ∧ (a0 i).toInt < 50000)

include hr

/-- A nonnegative index is not wrapped. -/
theorem wrapped_eq (i : S4096x50.Idx) : wrapped a0 i = a0 i := by
  unfold wrapped
  show Scalar.select (IntOp.cmpi .slt (a0 i) 0#32) (IntOp.addi (a0 i) 50000#32) (a0 i) = a0 i
  have hn : ¬ IntOp.cmpi .slt (a0 i) 0#32 = 1#1 := fun h => by
    have h1 := IntOp.cmpi_slt.1 h
    have z0 : (0#32 : BitVec 32).toInt = 0 := by decide
    have := (hr i).1
    omega
  rw [ValueIdx.eq_zero_of_ne_one hn, ValueIdx.select_zero]

/-- The start index of row `(b, s)` is the index word itself. -/
theorem starts_eq (k : S4096x50x1.Idx) : starts a0 k = a0 (ValueIdx.ix2 (k 0) (k 1)) := by
  unfold starts
  rw [broadcastInDim_apply _ bcast_S4096x50_S4096x50x1_0_1 (wrapped a0) k (ValueIdx.ix2 (k 0) (k 1)) (fun a => match a with
    | ⟨0, _⟩ => by show (k 0).val = if (4096 : Nat) = 1 then 0 else (k 0).val; rw [if_neg (by decide)]
    | ⟨1, _⟩ => by show (k 1).val = if (50 : Nat) = 1 then 0 else (k 1).val; rw [if_neg (by decide)])]
  exact wrapped_eq a0 hr _

/-- Every row passes the range test. -/
theorem inRange_all (k : S4096x50x1.Idx) : inRange a0 k = 1#1 := by
  unfold inRange
  show IntOp.andi (IntOp.cmpi .sge (starts a0 k) 0#32) (IntOp.cmpi .sle (starts a0 k) 49999#32) = 1#1
  rw [starts_eq a0 hr k]
  obtain ⟨h0, h1⟩ := hr (ValueIdx.ix2 (k 0) (k 1))
  have z0 : (0#32 : BitVec 32).toInt = 0 := by decide
  have z1 : (49999#32 : BitVec 32).toInt = 49999 := by decide
  exact IntOp.andi_eq_one.2 ⟨IntOp.cmpi_sge.2 (by rw [z0]; exact h0), IntOp.cmpi_sle.2 (by rw [z1]; omega)⟩

/-- So the state array is the gathered rows. -/
theorem taken_eq_rows : taken a0 emb = rows a0 emb := by
  funext j
  unfold taken
  have hm : (broadcastInDim S4096x50x128 ![0, 1] bcast_S4096x50_S4096x50x128_0_1
      (Host.reduce IntOp.andi (inRange a0) (constantI S_ 1 1#1) reducesTo_S4096x50x1_S4096x50_d2 h_S_)) j = 1#1 :=
    reduce_andi_of_all _ _ _ _ (fun _ => rfl) (inRange_all a0 hr) _
  rw [ValueIdx.select_apply, hm, ValueIdx.select_one]

end InRange

/-- The gathered rows are the reference program's gather stage of the same index and table arrays. -/
theorem rows_eq_ref (a0 : IVec S4096x50 32) (emb : FVec Ideal S50000x128 .f32) :
    rows a0 emb = Cert.ReferenceIdeal.Read.val_main_v6 (F := Ideal) a0 emb := rfl

/-! ## The precondition read back -/

instance : Subsingleton Cert.Pre_finite_inputs.S_.Idx := ⟨fun a b => funext fun d => d.elim0⟩

/-- Under the precondition every index word, read signed, lies in `[0, 50000)`. -/
theorem range_of_pre [Cert.Pre_finite_inputs.Facts] (hpre : Cert.Pre_KernelIdeal m) (c : Dev nD) (i : S4096x50.Idx) :
    0 ≤ (m ((c : Thread nD τ).loc main_arg0) i).toInt ∧ (m ((c : Thread nD τ).loc main_arg0) i).toInt < 50000 := by
  have h0 := congrFun (hpre c) ValueIdx.ix0
  have h1 : IntOp.andi _ (Host.reduce IntOp.andi
      (andi (cmpi .sge (m ((c : Thread nD τ).loc main_arg0))
          (broadcastInDim Cert.Pre_finite_inputs.S4096x50 ![] Cert.Pre_finite_inputs.Facts.bcast_S_S4096x50 (constantI Cert.Pre_finite_inputs.S_ 32 0#32)))
        (cmpi .slt (m ((c : Thread nD τ).loc main_arg0))
          (broadcastInDim Cert.Pre_finite_inputs.S4096x50 ![] Cert.Pre_finite_inputs.Facts.bcast_S_S4096x50 (constantI Cert.Pre_finite_inputs.S_ 32 50000#32))))
      (constantI Cert.Pre_finite_inputs.S_ 1 1#1) Cert.Pre_finite_inputs.Facts.reducesTo_S4096x50_S_d0_1 Cert.Pre_finite_inputs.Facts.h_S_ ValueIdx.ix0) = 1#1 := h0
  have h2 := Host.reduce_andi_all _ _ _ _ _ (IntOp.andi_eq_one.1 h1).2 i
  obtain ⟨hge, hlt⟩ := IntOp.andi_eq_one.1 h2
  have hge' : (0#32 : BitVec 32).toInt ≤ (m ((c : Thread nD τ).loc main_arg0) i).toInt := IntOp.cmpi_sge.1 hge
  have hlt' : (m ((c : Thread nD τ).loc main_arg0) i).toInt < (50000#32 : BitVec 32).toInt := IntOp.cmpi_slt.1 hlt
  have z0 : (0#32 : BitVec 32).toInt = 0 := by decide
  have z1 : (50000#32 : BitVec 32).toInt = 50000 := by decide
  omega

end Cert.KernelIdeal.Hidden

end
-- ==== Proof.KRun.lean ====
/-
  The kernel program's run, with its result array named as one function of the ARGUMENT arrays.

  The region finds the weight arrays transposed and the biases as one-row matrices (host operations before the region);
  transposing back and reading the one row gives the arguments again. Under the precondition the state array is the
  gathered embedding rows. So the result array ends holding `net` of the gathered rows, the adjacency argument and the
  weight and bias arguments.
-/
import proofs.«427578_j65025804861642_4_alg».proof.Proof.KCell
import proofs.«427578_j65025804861642_4_alg».proof.Proof.Hidden
import Idealize.ShloMosaic.Lib.StableHlo.Run

set_option maxRecDepth 16384

noncomputable section

namespace Cert.KernelIdeal.KRun

open Cert.KernelIdeal Cert.KernelIdeal.Gen Idealize.ShloMosaic Idealize.ShloMosaic.TcCoe Idealize.SL.Sem
open Idealize.ShloMosaic.ValueIdx Cert.Gnn Idealize.ShloMosaic.StableHlo

/-- Transposing a transposed matrix back gives the matrix. -/
theorem tr_transpose {r c : Nat} (x : (⟨2, ![r, c]⟩ : Shape).Idx → EReal)
    (h : (⟨2, ![r, c]⟩ : Shape).Transposes [1, 0] ⟨2, ![c, r]⟩) :
    tr (transpose ⟨2, ![c, r]⟩ [1, 0] x h) = x := by
  funext j
  show transpose ⟨2, ![c, r]⟩ [1, 0] x h (ix2 (j 1) (j 0)) = x j
  exact transpose_apply [1, 0] x h (ix2 (j 1) (j 0)) j (fun b => match b with
    | ⟨0, _⟩ => rfl
    | ⟨1, _⟩ => rfl)

/-- The one row of a vector laid out as a one-row matrix is the vector. -/
theorem row0_cast {n : Nat} (x : (⟨1, ![n]⟩ : Shape).Idx → EReal) (h : (⟨1, ![n]⟩ : Shape).ShapeCasts ⟨2, ![1, n]⟩) :
    row0 (shapeCast ⟨2, ![1, n]⟩ x h) = x := by
  funext j
  show shapeCast ⟨2, ![1, n]⟩ x h (ix2 (0 : Fin 1) (j 0)) = x j
  refine shapeCast_apply x h (ix2 (0 : Fin 1) (j 0)) j ?_
  rw [Shape.rowMajor_val_one, Shape.rowMajor_val_two]
  show (j 0).val = 0 * n + (j 0).val
  omega

variable (m : (ℓ : Loc nD τ sig) → Buf (Elt Ideal) ℓ) (ρ : Dev nD → PrngReg)

/-- The region finds this window's array at the transposed weight argument. -/
theorem V_v1 (c : Dev nD) : (V m c main_v1 : S128x128.Idx → EReal) = transpose S128x128 [1, 0] (m ((c : Thread nD τ).loc main_arg3)) transposes_S128x128_S128x128_1_0 := by
  dsimp only [V]
  simp only [hostOps0, hostOps0_1, List.flatten_cons, List.flatten_nil, List.append_nil, List.cons_append, List.nil_append]
  after_results

/-- The region finds this window's array at the transposed weight argument. -/
theorem V_v2 (c : Dev nD) : (V m c main_v2 : S128x128.Idx → EReal) = transpose S128x128 [1, 0] (m ((c : Thread nD τ).loc main_arg5)) transposes_S128x128_S128x128_1_0 := by
  dsimp only [V]
  simp only [hostOps0, hostOps0_1, List.flatten_cons, List.flatten_nil, List.append_nil, List.cons_append, List.nil_append]
  after_results

/-- The region finds this window's array at the transposed weight argument. -/
theorem V_v3 (c : Dev nD) : (V m c main_v3 : S256x384.Idx → EReal) = transpose S256x384 [1, 0] (m ((c : Thread nD τ).loc main_arg7)) transposes_S384x256_S256x384_1_0 := by
  dsimp only [V]
  simp only [hostOps0, hostOps0_1, List.flatten_cons, List.flatten_nil, List.append_nil, List.cons_append, List.nil_append]
  after_results

/-- The region finds this window's array at the transposed weight argument. -/
theorem V_v4 (c : Dev nD) : (V m c main_v4 : S128x384.Idx → EReal) = transpose S128x384 [1, 0] (m ((c : Thread nD τ).loc main_arg9)) transposes_S384x128_S128x384_1_0 := by
  dsimp only [V]
  simp only [hostOps0, hostOps0_1, List.flatten_cons, List.flatten_nil, List.append_nil, List.cons_append, List.nil_append]
  after_results

/-- The region finds this window's array at the bias argument laid out as one row. -/
theorem V_v5 (c : Dev nD) : (V m c main_v5 : S1x128.Idx → EReal) = shapeCast S1x128 (m ((c : Thread nD τ).loc main_arg4)) shapeCasts_S128_S1x128 := by
  dsimp only [V]
  simp only [hostOps0, hostOps0_1, List.flatten_cons, List.flatten_nil, List.append_nil, List.cons_append, List.nil_append]
  after_results
  rfl

/-- The region finds this window's array at the bias argument laid out as one row. -/
theorem V_v6 (c : Dev nD) : (V m c main_v6 : S1x128.Idx → EReal) = shapeCast S1x128 (m ((c : Thread nD τ).loc main_arg6)) shapeCasts_S128_S1x128 := by
  dsimp only [V]
  simp only [hostOps0, hostOps0_1, List.flatten_cons, List.flatten_nil, List.append_nil, List.cons_append, List.nil_append]
  after_results
  rfl

/-- The region finds this window's array at the bias argument laid out as one row. -/
theorem V_v7 (c : Dev nD) : (V m c main_v7 : S1x384.Idx → EReal) = shapeCast S1x384 (m ((c : Thread nD τ).loc main_arg8)) shapeCasts_S384_S1x384 := by
  dsimp only [V]
  simp only [hostOps0, hostOps0_1, List.flatten_cons, List.flatten_nil, List.append_nil, List.cons_append, List.nil_append]
  after_results
  rfl

/-- The region finds this window's array at the bias argument laid out as one row. -/
theorem V_v8 (c : Dev nD) : (V m c main_v8 : S1x384.Idx → EReal) = shapeCast S1x384 (m ((c : Thread nD τ).loc main_arg10)) shapeCasts_S384_S1x384 := by
  dsimp only [V]
  simp only [hostOps0, hostOps0_1, List.flatten_cons, List.flatten_nil, List.append_nil, List.cons_append, List.nil_append]
  after_results
  rfl

/-- The region finds this window's array at the bias argument laid out as one row. -/
theorem V_v9 (c : Dev nD) : (V m c main_v9 : S1x128.Idx → EReal) = shapeCast S1x128 (m ((c : Thread nD τ).loc main_arg11)) shapeCasts_S128_S1x128 := by
  dsimp only [V]
  simp only [hostOps0, hostOps0_1, List.flatten_cons, List.flatten_nil, List.append_nil, List.cons_append, List.nil_append]
  after_results
  rfl

/-- The region finds this window's array at the bias argument laid out as one row. -/
theorem V_v10 (c : Dev nD) : (V m c main_v10 : S1x128.Idx → EReal) = shapeCast S1x128 (m ((c : Thread nD τ).loc main_arg12)) shapeCasts_S128_S1x128 := by
  dsimp only [V]
  simp only [hostOps0, hostOps0_1, List.flatten_cons, List.flatten_nil, List.append_nil, List.cons_append, List.nil_append]
  after_results
  rfl

/-- `net` of the argument arrays, the state being the gathered embedding rows. -/
abbrev netArgs (c : Dev nD) : S4096x50x128.Idx → EReal :=
  net (Hidden.rows (m ((c : Thread nD τ).loc main_arg0)) (m ((c : Thread nD τ).loc main_arg2))) (m ((c : Thread nD τ).loc main_arg1)) (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-- Under the precondition, `net` of the region-entry arrays is `net` of the arguments. -/
theorem netV_eq [Cert.Pre_finite_inputs.Facts] (hpre : Cert.Pre_KernelIdeal m) (c : Dev nD) : KCell.netV m c = netArgs m c := by
  unfold KCell.netV netArgs
  rw [Hidden.V_main_v0, Hidden.taken_eq_rows _ _ (Hidden.range_of_pre m hpre c), V_main_arg1, V_v1, V_v2, V_v3, V_v4, V_v5, V_v6, V_v7, V_v8, V_v9,
    V_v10, tr_transpose, tr_transpose, tr_transpose, tr_transpose, row0_cast, row0_cast, row0_cast, row0_cast, row0_cast, row0_cast]

/-- The kernel program's run under the precondition: the result array at `net` of the arguments, the arguments unchanged. -/
theorem run [Cert.Pre_finite_inputs.Facts] (hpre : Cert.Pre_KernelIdeal m) :
    θ_run defs (onTc (τ := τ) (main (F := Ideal))) ⟨m, fun _ => 0, ρ⟩ fun r => ∀ c : Dev nD,
      r.2.mem ((c : Thread nD τ).loc main_v11) = netArgs m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans ((KCell.final m c).trans (netV_eq m hpre c)), (h c).2⟩)
    (Cert.KernelIdeal.Value.run_blocks m ρ)

end Cert.KernelIdeal.KRun

end
-- ==== Proof.RefCell.lean ====
/-
  The reference program stage by stage, each read at an entry `(b, s, h)` over an opaque state array (the gathered
  embedding rows): the dense layers, the two messages, their concatenation along the columns, the gate
  pre-activations — where the contraction over the 256 joined columns splits into the two sums over 128 —, the three
  gates' slices, the logistic written out as `1 / (1 + exp (−x))`, the hyperbolic tangent and the GRU update: the
  specification's `cell` of sample `b`.
-/
import proofs.«427578_j65025804861642_4_alg».proof.Proof.Gen.ReferenceIdeal.Read
import proofs.«427578_j65025804861642_4_alg».proof.Proof.GnnSpec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

noncomputable section

namespace Cert.ReferenceIdeal.RefCell

open Cert.ReferenceIdeal Cert.ReferenceIdeal.Gen Cert.ReferenceIdeal.Read Idealize.ShloMosaic Idealize.ShloMosaic.ValueIdx Cert.Gnn

section Stages

variable (x0 : (⟨S4096x50, .i32⟩ : BufTy).Contents (Elt Ideal)) (x1 : (⟨S4096x50x100, .f32⟩ : BufTy).Contents (Elt Ideal)) (x2 : (⟨S50000x128, .f32⟩ : BufTy).Contents (Elt Ideal))
    (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
    (x7 : (⟨S384x256, .f32⟩ : BufTy).Contents (Elt Ideal)) (x8 : (⟨S384, .f32⟩ : BufTy).Contents (Elt Ideal)) (x9 : (⟨S384x128, .f32⟩ : BufTy).Contents (Elt Ideal)) (x10 : (⟨S384, .f32⟩ : BufTy).Contents (Elt Ideal))
    (x11 x12 : (⟨S128, .f32⟩ : BufTy).Contents (Elt Ideal))

/-! ## The biases, broadcast over samples and rows -/

/-- A 128-wide bias broadcast to `1 × 1 × 128` and then over samples and rows reads the bias at the column. -/
theorem bias128_idx (b : Fin 4096) (s : Fin 50) (g : Fin 128) :
    idx_main_v10 (idx_main_v11 (ix3 b s g)) = ix1 g :=
  funext fun a => Fin.ext (by match a with | ⟨0, _⟩ => rfl)

theorem v11_at (b : Fin 4096) (s : Fin 50) (g : Fin 128) :
    val_main_v11 (F := Ideal) x4 (ix3 b s g) = x4 (ix1 g) := by
  rw [val_main_v11_apply, val_main_v10_apply]
  exact congrArg x4 (bias128_idx b s g)

theorem v15_at (b : Fin 4096) (s : Fin 50) (g : Fin 128) :
    val_main_v15 (F := Ideal) x6 (ix3 b s g) = x6 (ix1 g) := by
  rw [val_main_v15_apply, val_main_v14_apply]
  exact congrArg x6 (bias128_idx b s g)

theorem v19_at (b : Fin 4096) (s : Fin 50) (g : Fin 128) :
    val_main_v19 (F := Ideal) x11 (ix3 b s g) = x11 (ix1 g) := by
  rw [val_main_v19_apply, val_main_v18_apply]
  exact congrArg x11 (bias128_idx b s g)

theorem v23_at (b : Fin 4096) (s : Fin 50) (g : Fin 128) :
    val_main_v23 (F := Ideal) x12 (ix3 b s g) = x12 (ix1 g) := by
  rw [val_main_v23_apply, val_main_v22_apply]
  exact congrArg x12 (bias128_idx b s g)

/-- A 384-wide bias broadcast the same way reads the bias at the gate row. -/
theorem bias384_idx (b : Fin 4096) (s : Fin 50) (r : Fin 384) :
    idx_main_v27 (idx_main_v28 (ix3 b s r)) = ix1 r :=
  funext fun a => Fin.ext (by match a with | ⟨0, _⟩ => rfl)

theorem v28_at (b : Fin 4096) (s : Fin 50) (r : Fin 384) :
    val_main_v28 (F := Ideal) x8 (ix3 b s r) = x8 (ix1 r) := by
  rw [val_main_v28_apply, val_main_v27_apply]
  exact congrArg x8 (bias384_idx b s r)

theorem v32_at (b : Fin 4096) (s : Fin 50) (r : Fin 384) :
    val_main_v32 (F := Ideal) x10 (ix3 b s r) = x10 (ix1 r) := by
  rw [val_main_v32_apply, val_main_v31_apply]
  exact congrArg x10 (bias384_idx b s r)

/-! ## The two dense layers -/

theorem lidx9_at (b : Fin 4096) (s : Fin 50) (g k : Fin 128) : lidx_main_v9 (ix3 b s g) k = ix3 b s k :=
  funext fun a => Fin.ext (by match a with | ⟨0, _⟩ => rfl | ⟨1, _⟩ => rfl | ⟨2, _⟩ => rfl)
theorem ridx9_at (b : Fin 4096) (s : Fin 50) (g k : Fin 128) : ridx_main_v9 (ix3 b s g) k = ix2 g k :=
  funext fun a => Fin.ext (by match a with | ⟨0, _⟩ => rfl | ⟨1, _⟩ => rfl)

/-- The first dense layer of sample `b`, on the gathered state. -/
theorem v12_at (b : Fin 4096) (s : Fin 50) (g : Fin 128) :
    val_main_v12 (F := Ideal) x0 x2 x3 x4 (ix3 b s g)
      = dense (sampleX (val_main_v6 (F := Ideal) x0 x2) b) x3 x4 s g := by
  rw [val_main_v12_apply, val_main_v9_apply, v11_at]
  generalize val_main_v6 (F := Ideal) x0 x2 = hid
  unfold dense
  rw [Ideal.addf_def]
  refine congrArg₂ (· + ·) (Finset.sum_congr rfl fun k _ => ?_) rfl
  rw [lidx9_at, ridx9_at]

theorem lidx13_at (b : Fin 4096) (s : Fin 50) (g k : Fin 128) : lidx_main_v13 (ix3 b s g) k = ix3 b s k :=
  funext fun a => Fin.ext (by match a with | ⟨0, _⟩ => rfl | ⟨1, _⟩ => rfl | ⟨2, _⟩ => rfl)
theorem ridx13_at (b : Fin 4096) (s : Fin 50) (g k : Fin 128) : ridx_main_v13 (ix3 b s g) k = ix2 g k :=
  funext fun a => Fin.ext (by match a with | ⟨0, _⟩ => rfl | ⟨1, _⟩ => rfl)

/-- The second dense layer of sample `b`. -/
theorem v16_at (b : Fin 4096) (s : Fin 50) (g : Fin 128) :
    val_main_v16 (F := Ideal) x0 x2 x5 x6 (ix3 b s g)
      = dense (sampleX (val_main_v6 (F := Ideal) x0 x2) b) x5 x6 s g := by
  rw [val_main_v16_apply, val_main_v13_apply, v15_at]
  generalize val_main_v6 (F := Ideal) x0 x2 = hid
  unfold dense
  rw [Ideal.addf_def]
  refine congrArg₂ (· + ·) (Finset.sum_congr rfl fun k _ => ?_) rfl
  rw [lidx13_at, ridx13_at]

/-! ## The two aggregated messages -/

theorem aidx17_at (b : Fin 4096) (s : Fin 50) (h : Fin 128) (k : Fin 50) :
    idx_main_v7 (lidx_main_v17 (ix3 b s h) k) = ix3 b s (colIn k) :=
  funext fun a => Fin.ext (by match a with | ⟨0, _⟩ => rfl | ⟨1, _⟩ => rfl | ⟨2, _⟩ => rfl)
theorem ridx17_at (b : Fin 4096) (s : Fin 50) (h : Fin 128) (k : Fin 50) : ridx_main_v17 (ix3 b s h) k = ix3 b k h :=
  funext fun a => Fin.ext (by match a with | ⟨0, _⟩ => rfl | ⟨1, _⟩ => rfl | ⟨2, _⟩ => rfl)

/-- The incoming message of sample `b`: the first 50 adjacency columns against the first dense layer. -/
theorem v20_at (b : Fin 4096) (s : Fin 50) (h : Fin 128) :
    val_main_v20 (F := Ideal) x0 x1 x2 x3 x4 x11 (ix3 b s h)
      = msgIn (sampleX (val_main_v6 (F := Ideal) x0 x2) b) (sampleA x1 b) x3 x4 x11 s h := by
  rw [val_main_v20_apply, val_main_v17_apply, v19_at]
  unfold msgIn aggIn
  rw [Ideal.addf_def]
  refine congrArg₂ (· + ·) (Finset.sum_congr rfl fun k _ => ?_) rfl
  rw [ridx17_at, v12_at, val_main_v7_apply, aidx17_at]

theorem aidx21_at (b : Fin 4096) (s : Fin 50) (h : Fin 128) (k : Fin 50) :
    idx_main_v8 (lidx_main_v21 (ix3 b s h) k) = ix3 b s (colOut k) :=
  funext fun a => Fin.ext (by match a with | ⟨0, _⟩ => rfl | ⟨1, _⟩ => rfl | ⟨2, _⟩ => rfl)
theorem ridx21_at (b : Fin 4096) (s : Fin 50) (h : Fin 128) (k : Fin 50) : ridx_main_v21 (ix3 b s h) k = ix3 b k h :=
  funext fun a => Fin.ext (by match a with | ⟨0, _⟩ => rfl | ⟨1, _⟩ => rfl | ⟨2, _⟩ => rfl)

/-- The outgoing message of sample `b`: the last 50 adjacency columns against the second dense layer. -/
theorem v24_at (b : Fin 4096) (s : Fin 50) (h : Fin 128) :
    val_main_v24 (F := Ideal) x0 x1 x2 x5 x6 x12 (ix3 b s h)
      = msgOut (sampleX (val_main_v6 (F := Ideal) x0 x2) b) (sampleA x1 b) x5 x6 x12 s h := by
  rw [val_main_v24_apply, val_main_v21_apply, v23_at]
  unfold msgOut aggOut
  rw [Ideal.addf_def]
  refine congrArg₂ (· + ·) (Finset.sum_congr rfl fun k _ => ?_) rfl
  rw [ridx21_at, v16_at, val_main_v8_apply, aidx21_at]

/-! ## The two messages joined along the columns -/

/-- Column `i` of the joined 256 columns is column `i` of the incoming message. -/
theorem v25_lo (b : Fin 4096) (s : Fin 50) (i : Fin 128) :
    val_main_v25 (F := Ideal) x0 x1 x2 x3 x4 x5 x6 x11 x12 (ix3 b s (lo256 i))
      = val_main_v20 (F := Ideal) x0 x1 x2 x3 x4 x11 (ix3 b s i) := by
  unfold val_main_v25
  exact concatenate_pair_apply_left (t := S4096x50x256) (s₁ := S4096x50x128) (s₂ := S4096x50x128) 2 _ _
    concatenates_S4096x50x128_S4096x50x128_S4096x50x256_d2 (ix3 b s (lo256 i)) rfl (ix3 b s i)
    (fun a => by match a with | ⟨0, _⟩ => rfl | ⟨1, _⟩ => rfl | ⟨2, _⟩ => rfl)

/-- Column `128 + i` of the joined 256 columns is column `i` of the outgoing message. -/
theorem v25_hi (b : Fin 4096) (s : Fin 50) (i : Fin 128) :
    val_main_v25 (F := Ideal) x0 x1 x2 x3 x4 x5 x6 x11 x12 (ix3 b s (hi256 i))
      = val_main_v24 (F := Ideal) x0 x1 x2 x5 x6 x12 (ix3 b s i) := by
  unfold val_main_v25
  exact concatenate_pair_apply_right (t := S4096x50x256) (s₁ := S4096x50x128) (s₂ := S4096x50x128) 2 _ _
    concatenates_S4096x50x128_S4096x50x128_S4096x50x256_d2 (ix3 b s (hi256 i)) rfl rfl (ix3 b s i)
    (fun a => by
      match a with
      | ⟨0, _⟩ => exact fun _ => rfl
      | ⟨1, _⟩ => exact fun _ => rfl
      | ⟨2, _⟩ => exact fun hne => absurd rfl hne)
    (by show i.val + 128 = 128 + i.val; omega)

/-! ## The gate pre-activations -/

theorem lidx26_at (b : Fin 4096) (s : Fin 50) (r : Fin 384) (k : Fin 256) : lidx_main_v26 (ix3 b s r) k = ix3 b s k :=
  funext fun a => Fin.ext (by match a with | ⟨0, _⟩ => rfl | ⟨1, _⟩ => rfl | ⟨2, _⟩ => rfl)
theorem ridx26_at (b : Fin 4096) (s : Fin 50) (r : Fin 384) (k : Fin 256) : ridx_main_v26 (ix3 b s r) k = ix2 r k :=
  funext fun a => Fin.ext (by match a with | ⟨0, _⟩ => rfl | ⟨1, _⟩ => rfl)

/-- The input-side pre-activation at the gate row `o + h`: the contraction over the 256 joined columns splits into
    the incoming half and the outgoing half. -/
theorem v29_at (b : Fin 4096) (s : Fin 50) (o : Nat) (ho : o + 128 ≤ 384) (h : Fin 128) :
    val_main_v29 (F := Ideal) x0 x1 x2 x3 x4 x5 x6 x7 x8 x11 x12 (ix3 b s (gateRow o ho h))
      = gateI (msgIn (sampleX (val_main_v6 (F := Ideal) x0 x2) b) (sampleA x1 b) x3 x4 x11) (msgOut (sampleX (val_main_v6 (F := Ideal) x0 x2) b) (sampleA x1 b) x5 x6 x12) x7 x8 o ho s h := by
  rw [val_main_v29_apply, val_main_v26_apply, v28_at, sum_split256]
  unfold gateI
  rw [Ideal.addf_def]
  refine congrArg₂ (· + ·) (congrArg₂ (· + ·) (Finset.sum_congr rfl fun i _ => ?_) (Finset.sum_congr rfl fun i _ => ?_)) rfl
  · rw [lidx26_at, ridx26_at, v25_lo, v20_at]
  · rw [lidx26_at, ridx26_at, v25_hi, v24_at]

theorem lidx30_at (b : Fin 4096) (s : Fin 50) (r : Fin 384) (k : Fin 128) : lidx_main_v30 (ix3 b s r) k = ix3 b s k :=
  funext fun a => Fin.ext (by match a with | ⟨0, _⟩ => rfl | ⟨1, _⟩ => rfl | ⟨2, _⟩ => rfl)
theorem ridx30_at (b : Fin 4096) (s : Fin 50) (r : Fin 384) (k : Fin 128) : ridx_main_v30 (ix3 b s r) k = ix2 r k :=
  funext fun a => Fin.ext (by match a with | ⟨0, _⟩ => rfl | ⟨1, _⟩ => rfl)

/-- The state-side pre-activation at the gate row `o + h`. -/
theorem v33_at (b : Fin 4096) (s : Fin 50) (o : Nat) (ho : o + 128 ≤ 384) (h : Fin 128) :
    val_main_v33 (F := Ideal) x0 x2 x9 x10 (ix3 b s (gateRow o ho h))
      = gateH (sampleX (val_main_v6 (F := Ideal) x0 x2) b) x9 x10 o ho s h := by
  rw [val_main_v33_apply, val_main_v30_apply, v32_at]
  generalize val_main_v6 (F := Ideal) x0 x2 = hid
  unfold gateH
  rw [Ideal.addf_def]
  refine congrArg₂ (· + ·) (Finset.sum_congr rfl fun k _ => ?_) rfl
  rw [lidx30_at, ridx30_at]

/-! ## The three gates' slices: columns `h`, `128 + h` and `256 + h` of the 384 -/

theorem idx34_at (b : Fin 4096) (s : Fin 50) (h : Fin 128) : idx_main_v34 (ix3 b s h) = ix3 b s (gateRow 0 (by omega) h) :=
  funext fun a => Fin.ext (by
    match a with
    | ⟨0, _⟩ => rfl
    | ⟨1, _⟩ => rfl
    | ⟨2, _⟩ => exact (Nat.zero_add h.val).symm)
theorem idx35_at (b : Fin 4096) (s : Fin 50) (h : Fin 128) : idx_main_v35 (ix3 b s h) = ix3 b s (gateRow 128 (by omega) h) :=
  funext fun a => Fin.ext (by match a with | ⟨0, _⟩ => rfl | ⟨1, _⟩ => rfl | ⟨2, _⟩ => rfl)
theorem idx36_at (b : Fin 4096) (s : Fin 50) (h : Fin 128) : idx_main_v36 (ix3 b s h) = ix3 b s (gateRow 256 (by omega) h) :=
  funext fun a => Fin.ext (by match a with | ⟨0, _⟩ => rfl | ⟨1, _⟩ => rfl | ⟨2, _⟩ => rfl)
theorem idx37_at (b : Fin 4096) (s : Fin 50) (h : Fin 128) : idx_main_v37 (ix3 b s h) = ix3 b s (gateRow 0 (by omega) h) :=
  funext fun a => Fin.ext (by
    match a with
    | ⟨0, _⟩ => rfl
    | ⟨1, _⟩ => rfl
    | ⟨2, _⟩ => exact (Nat.zero_add h.val).symm)
theorem idx38_at (b : Fin 4096) (s : Fin 50) (h : Fin 128) : idx_main_v38 (ix3 b s h) = ix3 b s (gateRow 128 (by omega) h) :=
  funext fun a => Fin.ext (by match a with | ⟨0, _⟩ => rfl | ⟨1, _⟩ => rfl | ⟨2, _⟩ => rfl)
theorem idx39_at (b : Fin 4096) (s : Fin 50) (h : Fin 128) : idx_main_v39 (ix3 b s h) = ix3 b s (gateRow 256 (by omega) h) :=
  funext fun a => Fin.ext (by match a with | ⟨0, _⟩ => rfl | ⟨1, _⟩ => rfl | ⟨2, _⟩ => rfl)

theorem v34_at (b : Fin 4096) (s : Fin 50) (h : Fin 128) :
    val_main_v34 (F := Ideal) x0 x1 x2 x3 x4 x5 x6 x7 x8 x11 x12 (ix3 b s h) = gateI (msgIn (sampleX (val_main_v6 (F := Ideal) x0 x2) b) (sampleA x1 b) x3 x4 x11) (msgOut (sampleX (val_main_v6 (F := Ideal) x0 x2) b) (sampleA x1 b) x5 x6 x12) x7 x8 0 (by omega) s h := by
  rw [val_main_v34_apply, idx34_at, v29_at]
theorem v35_at (b : Fin 4096) (s : Fin 50) (h : Fin 128) :
    val_main_v35 (F := Ideal) x0 x1 x2 x3 x4 x5 x6 x7 x8 x11 x12 (ix3 b s h) = gateI (msgIn (sampleX (val_main_v6 (F := Ideal) x0 x2) b) (sampleA x1 b) x3 x4 x11) (msgOut (sampleX (val_main_v6 (F := Ideal) x0 x2) b) (sampleA x1 b) x5 x6 x12) x7 x8 128 (by omega) s h := by
  rw [val_main_v35_apply, idx35_at, v29_at]
theorem v36_at (b : Fin 4096) (s : Fin 50) (h : Fin 128) :
    val_main_v36 (F := Ideal) x0 x1 x2 x3 x4 x5 x6 x7 x8 x11 x12 (ix3 b s h) = gateI (msgIn (sampleX (val_main_v6 (F := Ideal) x0 x2) b) (sampleA x1 b) x3 x4 x11) (msgOut (sampleX (val_main_v6 (F := Ideal) x0 x2) b) (sampleA x1 b) x5 x6 x12) x7 x8 256 (by omega) s h := by
  rw [val_main_v36_apply, idx36_at, v29_at]
theorem v37_at (b : Fin 4096) (s : Fin 50) (h : Fin 128) :
    val_main_v37 (F := Ideal) x0 x2 x9 x10 (ix3 b s h) = gateH (sampleX (val_main_v6 (F := Ideal) x0 x2) b) x9 x10 0 (by omega) s h := by
  rw [val_main_v37_apply, idx37_at, v33_at]
theorem v38_at (b : Fin 4096) (s : Fin 50) (h : Fin 128) :
    val_main_v38 (F := Ideal) x0 x2 x9 x10 (ix3 b s h) = gateH (sampleX (val_main_v6 (F := Ideal) x0 x2) b) x9 x10 128 (by omega) s h := by
  rw [val_main_v38_apply, idx38_at, v33_at]
theorem v39_at (b : Fin 4096) (s : Fin 50) (h : Fin 128) :
    val_main_v39 (F := Ideal) x0 x2 x9 x10 (ix3 b s h) = gateH (sampleX (val_main_v6 (F := Ideal) x0 x2) b) x9 x10 256 (by omega) s h := by
  rw [val_main_v39_apply, idx39_at, v33_at]

/-! ## The gates and the new state -/

/-- The constant `1.0`, broadcast, reads the extended real one. -/
theorem v43_at (j : S4096x50x128.Idx) : val_main_v43 (F := Ideal) j = 1 := by
  rw [val_main_v43_apply, val_main_cst_apply, Ideal.ofBits_def, Ideal.ofBits_one_f32]
theorem v45_at (j : S4096x50x128.Idx) : val_main_v45 (F := Ideal) j = 1 := by
  rw [val_main_v45_apply, val_main_cst_1_apply, Ideal.ofBits_def, Ideal.ofBits_one_f32]
theorem v50_at (j : S4096x50x128.Idx) : val_main_v50 (F := Ideal) j = 1 := by
  rw [val_main_v50_apply, val_main_cst_2_apply, Ideal.ofBits_def, Ideal.ofBits_one_f32]
theorem v52_at (j : S4096x50x128.Idx) : val_main_v52 (F := Ideal) j = 1 := by
  rw [val_main_v52_apply, val_main_cst_3_apply, Ideal.ofBits_def, Ideal.ofBits_one_f32]

/-- The reset gate: `1 / (1 + exp (−(gi₀ + gh₀)))` is the logistic function of the sum. -/
theorem v46_at (b : Fin 4096) (s : Fin 50) (h : Fin 128) :
    val_main_v46 (F := Ideal) x0 x1 x2 x3 x4 x5 x6 x7 x8 x9 x10 x11 x12 (ix3 b s h)
      = Ideal.logistic (gateI (msgIn (sampleX (val_main_v6 (F := Ideal) x0 x2) b) (sampleA x1 b) x3 x4 x11) (msgOut (sampleX (val_main_v6 (F := Ideal) x0 x2) b) (sampleA x1 b) x5 x6 x12) x7 x8 0 (by omega) s h + gateH (sampleX (val_main_v6 (F := Ideal) x0 x2) b) x9 x10 0 (by omega) s h) := by
  rw [val_main_v46_apply, val_main_v44_apply, val_main_v42_apply, val_main_v41_apply, val_main_v40_apply,
    v45_at, v43_at, v34_at, v37_at]
  rfl

/-- The update gate, likewise on the rows `128 + h`. -/
theorem v53_at (b : Fin 4096) (s : Fin 50) (h : Fin 128) :
    val_main_v53 (F := Ideal) x0 x1 x2 x3 x4 x5 x6 x7 x8 x9 x10 x11 x12 (ix3 b s h)
      = Ideal.logistic (gateI (msgIn (sampleX (val_main_v6 (F := Ideal) x0 x2) b) (sampleA x1 b) x3 x4 x11) (msgOut (sampleX (val_main_v6 (F := Ideal) x0 x2) b) (sampleA x1 b) x5 x6 x12) x7 x8 128 (by omega) s h + gateH (sampleX (val_main_v6 (F := Ideal) x0 x2) b) x9 x10 128 (by omega) s h) := by
  rw [val_main_v53_apply, val_main_v51_apply, val_main_v49_apply, val_main_v48_apply, val_main_v47_apply,
    v52_at, v50_at, v35_at, v38_at]
  rfl

/-- The candidate state: `tanh (gi₂₅₆ + r · gh₂₅₆)`. -/
theorem v56_at (b : Fin 4096) (s : Fin 50) (h : Fin 128) :
    val_main_v56 (F := Ideal) x0 x1 x2 x3 x4 x5 x6 x7 x8 x9 x10 x11 x12 (ix3 b s h)
      = Ideal.tanh (gateI (msgIn (sampleX (val_main_v6 (F := Ideal) x0 x2) b) (sampleA x1 b) x3 x4 x11) (msgOut (sampleX (val_main_v6 (F := Ideal) x0 x2) b) (sampleA x1 b) x5 x6 x12) x7 x8 256 (by omega) s h
          + Ideal.logistic (gateI (msgIn (sampleX (val_main_v6 (F := Ideal) x0 x2) b) (sampleA x1 b) x3 x4 x11) (msgOut (sampleX (val_main_v6 (F := Ideal) x0 x2) b) (sampleA x1 b) x5 x6 x12) x7 x8 0 (by omega) s h + gateH (sampleX (val_main_v6 (F := Ideal) x0 x2) b) x9 x10 0 (by omega) s h)
            * gateH (sampleX (val_main_v6 (F := Ideal) x0 x2) b) x9 x10 256 (by omega) s h) := by
  rw [val_main_v56_apply, val_main_v55_apply, val_main_v54_apply, v36_at, v46_at, v39_at]
  rfl

/-- The reference's result at `(b, s, h)` is the GRU update of sample `b`. -/
theorem v59_at (b : Fin 4096) (s : Fin 50) (h : Fin 128) :
    val_main_v59 (F := Ideal) x0 x1 x2 x3 x4 x5 x6 x7 x8 x9 x10 x11 x12 (ix3 b s h)
      = gru (sampleX (val_main_v6 (F := Ideal) x0 x2) b) (msgIn (sampleX (val_main_v6 (F := Ideal) x0 x2) b) (sampleA x1 b) x3 x4 x11) (msgOut (sampleX (val_main_v6 (F := Ideal) x0 x2) b) (sampleA x1 b) x5 x6 x12) x7 x8 x9 x10 s h := by
  rw [val_main_v59_apply, val_main_v58_apply, val_main_v57_apply, v53_at, v56_at]
  rfl

end Stages

/-- The reference's result, read at an index `(b, s, h)`, is the specification's `cell` of sample `b`: its state the
    gathered embedding rows, its adjacency block sample `b` of `A`. -/
theorem ref_apply (x0 : (⟨S4096x50, .i32⟩ : BufTy).Contents (Elt Ideal)) (x1 : (⟨S4096x50x100, .f32⟩ : BufTy).Contents (Elt Ideal)) (x2 : (⟨S50000x128, .f32⟩ : BufTy).Contents (Elt Ideal))
    (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
    (x7 : (⟨S384x256, .f32⟩ : BufTy).Contents (Elt Ideal)) (x8 : (⟨S384, .f32⟩ : BufTy).Contents (Elt Ideal)) (x9 : (⟨S384x128, .f32⟩ : BufTy).Contents (Elt Ideal)) (x10 : (⟨S384, .f32⟩ : BufTy).Contents (Elt Ideal))
    (x11 x12 : (⟨S128, .f32⟩ : BufTy).Contents (Elt Ideal)) (i : S4096x50x128.Idx) :
    val_main_v59 (F := Ideal) x0 x1 x2 x3 x4 x5 x6 x7 x8 x9 x10 x11 x12 i
      = cell (sampleX (val_main_v6 (F := Ideal) x0 x2) (i 0)) (sampleA x1 (i 0)) x3 x4 x5 x6 x7 x8 x9 x10 x11 x12 (i 1) (i 2) := by
  obtain ⟨b, s, h, rfl⟩ : ∃ (b : Fin 4096) (s : Fin 50) (h : Fin 128), i = ix3 b s h := ⟨i 0, i 1, i 2, eq_ix3 i⟩
  exact v59_at x0 x1 x2 x3 x4 x5 x6 x7 x8 x9 x10 x11 x12 b s h

end Cert.ReferenceIdeal.RefCell

end
-- ==== Proof.lean ====
/-
  A gated graph neural cell on a batch of 4096 sessions of 50 nodes: each node state is an embedding row looked up
  by an integer index; two dense layers feed an incoming and an outgoing adjacency aggregation; a GRU cell reads the
  two messages and the state. The kernel program works on blocks of 32 sessions, flattens each block to 1600 rows for
  the dense layers and the gate products, takes the weights transposed beforehand and contracts the two halves of the
  concatenated message separately; the reference program contracts the concatenation at once over whole arrays. Over
  the extended reals both are the same function of the arguments, `Cert.Gnn.net` (Proof/GnnSpec.lean, GnnNet.lean):
  the kernel program's result array is `net` of the arguments by Proof/KRun.lean (block by block: KCell.lean over
  KOps / KMsg / KGru; the looked-up rows under the precondition: Hidden.lean), the reference program's by
  Proof/RefCell.lean. The only rearrangement of a sum is the split of a sum over 256 columns into two sums over 128,
  which holds on the extended reals without any finiteness. The precondition is used once: every index lies in
  `[0, 50000)`, so the kernel program's lookup never substitutes its fill for a table row.

  The frames of the two kernel programs are the generated ones; the reference program's is its run with the result
  dropped; the idealization rewrote nothing, so `preserves` is trivial.
-/
import proofs.«427578_j65025804861642_4_alg».proof.Defs
import proofs.«427578_j65025804861642_4_alg».proof.Proof.Gen.Kernel
import proofs.«427578_j65025804861642_4_alg».proof.Proof.Gen.Kernel.Skeleton
import proofs.«427578_j65025804861642_4_alg».proof.Proof.Gen.Kernel.Launch
import proofs.«427578_j65025804861642_4_alg».proof.Proof.Gen.Kernel.Points
import proofs.«427578_j65025804861642_4_alg».proof.Proof.Gen.Kernel.Frame
import proofs.«427578_j65025804861642_4_alg».proof.Proof.Gen.KernelIdeal
import proofs.«427578_j65025804861642_4_alg».proof.Proof.Gen.KernelIdeal.Skeleton
import proofs.«427578_j65025804861642_4_alg».proof.Proof.Gen.KernelIdeal.Launch
import proofs.«427578_j65025804861642_4_alg».proof.Proof.Gen.KernelIdeal.Points
import proofs.«427578_j65025804861642_4_alg».proof.Proof.Gen.KernelIdeal.Frame
import proofs.«427578_j65025804861642_4_alg».proof.Proof.Gen.ReferenceIdeal
import proofs.«427578_j65025804861642_4_alg».proof.Proof.Gen.Pre_finite_inputs
import proofs.«427578_j65025804861642_4_alg».proof.Proof.Gen.KernelIdeal.Value
import proofs.«427578_j65025804861642_4_alg».proof.Proof.Gen.ReferenceIdeal.Run
import proofs.«427578_j65025804861642_4_alg».proof.Proof.Gen.ReferenceIdeal.Read
import proofs.«427578_j65025804861642_4_alg».proof.Proof.KRun
import proofs.«427578_j65025804861642_4_alg».proof.Proof.RefCell
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference program's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result array at `net` of the arguments: the kernel program by its run under the
    precondition, the reference program by its run read at an index, the arguments agreeing. -/
theorem algebraic : Cert.algebraic_KernelIdeal_ReferenceIdeal := by
  intro m ρ m' ρ' hpre hagree
  refine ⟨fun c => Cert.KernelIdeal.KRun.netArgs m c, Cert.KernelIdeal.KRun.run m ρ hpre, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12⟩ := hagree c
  rw [Cert.ReferenceIdeal.Read.val_main_v59_eq, e0, e1, e2, e3, e4, e5, e6, e7, e8, e9, e10, e11, e12]
  funext i
  rw [Cert.ReferenceIdeal.RefCell.ref_apply]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
